-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x197x768 : Shape := ⟨3, ![128, 197, 768]⟩
abbrev S10x12x768x64 : Shape := ⟨4, ![10, 12, 768, 64]⟩
abbrev S10x12x64 : Shape := ⟨3, ![10, 12, 64]⟩
abbrev S10x12x64x768 : Shape := ⟨4, ![10, 12, 64, 768]⟩
abbrev S10x12x768 : Shape := ⟨3, ![10, 12, 768]⟩
abbrev S128 : Shape := ⟨1, ![128]⟩
abbrev S_ : Shape := ⟨0, ![]⟩

class Facts : Prop where
  bcast_S_S128x197x768 : S_.BroadcastsInDim S128x197x768 (![] : Fin 0 → Fin S128x197x768.rank)
  reducesTo_S128x197x768_S_d0_1_2 : S128x197x768.ReducesTo [0, 1, 2] S_
  h_S_ : 0 < S_.numel
  bcast_S_S10x12x768x64 : S_.BroadcastsInDim S10x12x768x64 (![] : Fin 0 → Fin S10x12x768x64.rank)
  reducesTo_S10x12x768x64_S_d0_1_2_3 : S10x12x768x64.ReducesTo [0, 1, 2, 3] S_
  bcast_S_S10x12x64 : S_.BroadcastsInDim S10x12x64 (![] : Fin 0 → Fin S10x12x64.rank)
  reducesTo_S10x12x64_S_d0_1_2 : S10x12x64.ReducesTo [0, 1, 2] S_
  bcast_S_S10x12x64x768 : S_.BroadcastsInDim S10x12x64x768 (![] : Fin 0 → Fin S10x12x64x768.rank)
  reducesTo_S10x12x64x768_S_d0_1_2_3 : S10x12x64x768.ReducesTo [0, 1, 2, 3] S_
  bcast_S_S10x12x768 : S_.BroadcastsInDim S10x12x768 (![] : Fin 0 → Fin S10x12x768.rank)
  reducesTo_S10x12x768_S_d0_1_2 : S10x12x768.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg6 : IVec S128 32) (main_v30 : IVec S_ 1) (main_v32 : IVec S128 1) (main_c_12 : IVec S_ 32) : IVec S_ 1 :=
  let main_v33 : IVec S128 32 := broadcastInDim S128 ![] bcast_S_S128 main_c_12
  let main_v34 : IVec S128 1 := cmpi .slt main_arg6 main_v33
  let main_v35 : IVec S128 1 := andi main_v32 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v30 main_v36
  main_v37

def fn_part1 {F : FTy → Type} [FloatOps F] (main_arg4 : FVec F S10x12x768 .f32) (main_arg5 : IVec S128 32) (main_arg6 : IVec S128 32) (main_v13 : IVec S_ 1) (main_v16 : IVec S10x12x64x768 1) : IVec S_ 1 :=
  let main_c_5 : IVec S_ 1 := constantI S_ 1 1#1
  let main_v17 : IVec S_ 1 := (fun x v => Host.reduce IntOp.andi x v reducesTo_S10x12x64x768_S_d0_1_2_3 h_S_) main_v16 main_c_5
  let main_v18 : IVec S_ 1 := andi main_v13 main_v17
  let main_v19 : FVec F S10x12x768 .f32 := Host.absf main_arg4
  let main_cst_6 : FVec F S_ .f32 := constant S_ .f32 0x7F800000#32
  let main_v20 : FVec F S10x12x768 .f32 := broadcastInDim S10x12x768 ![] bcast_S_S10x12x768 main_cst_6
  let main_v21 : IVec S10x12x768 1 := cmpf .olt main_v19 main_v20
  let main_c_7 : IVec S_ 1 := constantI S_ 1 1#1
  let main_v22 : IVec S_ 1 := (fun x v => Host.reduce IntOp.andi x v reducesTo_S10x12x768_S_d0_1_2 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 32 := constantI S_ 32 10#32
  let main_v26 : IVec S128 32 := broadcastInDim S128 ![] bcast_S_S128 main_c_9
  let main_v27 : IVec S128 1 := cmpi .slt main_arg5 main_v26
  let main_v28 : IVec S128 1 := andi main_v25 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v23 main_v29
  let main_c_11 : IVec S_ 32 := constantI S_ 32 0#32
  let main_v31 : IVec S128 32 := broadcastInDim S128 ![] bcast_S_S128 main_c_11
  let main_v32 : IVec S128 1 := cmpi .sge main_arg6 main_v31
  let main_c_12 : IVec S_ 32 := constantI S_ 32 12#32
  fn_part2 (F := F) main_arg6 main_v30 main_v32 main_c_12

def fn {F : FTy → Type} [FloatOps F] (main_arg0 : FVec F S128x197x768 .f32) (main_arg1 : FVec F S10x12x768x64 .f32) (main_arg2 : FVec F S10x12x64 .f32) (main_arg3 : FVec F S10x12x64x768 .f32) (main_arg4 : FVec F S10x12x768 .f32) (main_arg5 : IVec S128 32) (main_arg6 : IVec S128 32) : IVec S_ 1 :=
  let main_v0 : FVec F S128x197x768 .f32 := Host.absf main_arg0
  let main_cst : FVec F S_ .f32 := constant S_ .f32 0x7F800000#32
  let main_v1 : FVec F S128x197x768 .f32 := broadcastInDim S128x197x768 ![] bcast_S_S128x197x768 main_cst
  let main_v2 : IVec S128x197x768 1 := cmpf .olt main_v0 main_v1
  let main_c : IVec S_ 1 := constantI S_ 1 1#1
  let main_v3 : IVec S_ 1 := (fun x v => Host.reduce IntOp.andi x v reducesTo_S128x197x768_S_d0_1_2 h_S_) main_v2 main_c
  let main_v4 : FVec F S10x12x768x64 .f32 := Host.absf main_arg1
  let main_cst_0 : FVec F S_ .f32 := constant S_ .f32 0x7F800000#32
  let main_v5 : FVec F S10x12x768x64 .f32 := broadcastInDim S10x12x768x64 ![] bcast_S_S10x12x768x64 main_cst_0
  let main_v6 : IVec S10x12x768x64 1 := cmpf .olt main_v4 main_v5
  let main_c_1 : IVec S_ 1 := constantI S_ 1 1#1
  let main_v7 : IVec S_ 1 := (fun x v => Host.reduce IntOp.andi x v reducesTo_S10x12x768x64_S_d0_1_2_3 h_S_) main_v6 main_c_1
  let main_v8 : IVec S_ 1 := andi main_v3 main_v7
  let main_v9 : FVec F S10x12x64 .f32 := Host.absf main_arg2
  let main_cst_2 : FVec F S_ .f32 := constant S_ .f32 0x7F800000#32
  let main_v10 : FVec F S10x12x64 .f32 := broadcastInDim S10x12x64 ![] bcast_S_S10x12x64 main_cst_2
  let main_v11 : IVec S10x12x64 1 := cmpf .olt main_v9 main_v10
  let main_c_3 : IVec S_ 1 := constantI S_ 1 1#1
  let main_v12 : IVec S_ 1 := (fun x v => Host.reduce IntOp.andi x v reducesTo_S10x12x64_S_d0_1_2 h_S_) main_v11 main_c_3
  let main_v13 : IVec S_ 1 := andi main_v8 main_v12
  let main_v14 : FVec F S10x12x64x768 .f32 := Host.absf main_arg3
  let main_cst_4 : FVec F S_ .f32 := constant S_ .f32 0x7F800000#32
  let main_v15 : FVec F S10x12x64x768 .f32 := broadcastInDim S10x12x64x768 ![] bcast_S_S10x12x64x768 main_cst_4
  let main_v16 : IVec S10x12x64x768 1 := cmpf .olt main_v14 main_v15
  fn_part1 (F := F) main_arg4 main_arg5 main_arg6 main_v13 main_v16
-- ==== Kernel.lean ====
abbrev S128x197x768 : Shape := ⟨3, ![128, 197, 768]⟩
abbrev S10x12x768x64 : Shape := ⟨4, ![10, 12, 768, 64]⟩
abbrev S10x12x64 : Shape := ⟨3, ![10, 12, 64]⟩
abbrev S10x12x64x768 : Shape := ⟨4, ![10, 12, 64, 768]⟩
abbrev S10x12x768 : Shape := ⟨3, ![10, 12, 768]⟩
abbrev S128 : Shape := ⟨1, ![128]⟩
abbrev S120x768x64 : Shape := ⟨3, ![120, 768, 64]⟩
abbrev S_ : Shape := ⟨0, ![]⟩
abbrev S120x768x128 : Shape := ⟨3, ![120, 768, 128]⟩
abbrev S120x64x768 : Shape := ⟨3, ![120, 64, 768]⟩
abbrev S120x128x768 : Shape := ⟨3, ![120, 128, 768]⟩
abbrev S120x64 : Shape := ⟨2, ![120, 64]⟩
abbrev S120x1x64 : Shape := ⟨3, ![120, 1, 64]⟩
abbrev S120x1x128 : Shape := ⟨3, ![120, 1, 128]⟩
abbrev S120x768 : Shape := ⟨2, ![120, 768]⟩
abbrev S120x1x768 : Shape := ⟨3, ![120, 1, 768]⟩
abbrev S4x197x768 : Shape := ⟨3, ![4, 197, 768]⟩
abbrev S4x768x128 : Shape := ⟨3, ![4, 768, 128]⟩
abbrev S4x1x128 : Shape := ⟨3, ![4, 1, 128]⟩
abbrev S4x128x768 : Shape := ⟨3, ![4, 128, 768]⟩
abbrev S4x1x768 : Shape := ⟨3, ![4, 1, 768]⟩
abbrev S4 : Shape := ⟨1, ![4]⟩
abbrev S1 : Shape := ⟨1, ![1]⟩
abbrev S1x768x128 : Shape := ⟨3, ![1, 768, 128]⟩
abbrev S768x128 : Shape := ⟨2, ![768, 128]⟩
abbrev S1x1x128 : Shape := ⟨3, ![1, 1, 128]⟩
abbrev S1x128 : Shape := ⟨2, ![1, 128]⟩
abbrev S1x128x768 : Shape := ⟨3, ![1, 128, 768]⟩
abbrev S128x768 : Shape := ⟨2, ![128, 768]⟩
abbrev S1x1x768 : Shape := ⟨3, ![1, 1, 768]⟩
abbrev S1x768 : Shape := ⟨2, ![1, 768]⟩
abbrev S1x197x768 : Shape := ⟨3, ![1, 197, 768]⟩
abbrev S197x768 : Shape := ⟨2, ![197, 768]⟩
abbrev S768 : Shape := ⟨1, ![768]⟩
abbrev S197x128 : Shape := ⟨2, ![197, 128]⟩

abbrev nBuf : Space → Nat
  | .hbm => 26
  | .vmem => 8
  | .smem => 1
  | _ => 0

abbrev bufTy : (tb : Table) → Fin (tcTables nBuf tb) → BufTy
  | .hbm, ⟨0, _⟩ => ⟨S128x197x768, .f32⟩
  | .hbm, ⟨1, _⟩ => ⟨S10x12x768x64, .f32⟩
  | .hbm, ⟨2, _⟩ => ⟨S10x12x64, .f32⟩
  | .hbm, ⟨3, _⟩ => ⟨S10x12x64x768, .f32⟩
  | .hbm, ⟨4, _⟩ => ⟨S10x12x768, .f32⟩
  | .hbm, ⟨5, _⟩ => ⟨S128, .i32⟩
  | .hbm, ⟨6, _⟩ => ⟨S128, .i32⟩
  | .hbm, ⟨7, _⟩ => ⟨S120x768x64, .f32⟩
  | .hbm, ⟨8, _⟩ => ⟨S_, .i32⟩
  | .hbm, ⟨9, _⟩ => ⟨S_, .f32⟩
  | .hbm, ⟨10, _⟩ => ⟨S120x768x128, .f32⟩
  | .hbm, ⟨11, _⟩ => ⟨S120x64x768, .f32⟩
  | .hbm, ⟨12, _⟩ => ⟨S_, .i32⟩
  | .hbm, ⟨13, _⟩ => ⟨S_, .f32⟩
  | .hbm, ⟨14, _⟩ => ⟨S120x128x768, .f32⟩
  | .hbm, ⟨15, _⟩ => ⟨S120x64, .f32⟩
  | .hbm, ⟨16, _⟩ => ⟨S120x1x64, .f32⟩
  | .hbm, ⟨17, _⟩ => ⟨S_, .i32⟩
  | .hbm, ⟨18, _⟩ => ⟨S_, .f32⟩
  | .hbm, ⟨19, _⟩ => ⟨S120x1x128, .f32⟩
  | .hbm, ⟨20, _⟩ => ⟨S120x768, .f32⟩
  | .hbm, ⟨21, _⟩ => ⟨S120x1x768, .f32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128x197x768, .f32⟩
  | .local _ .vmem, ⟨0, _⟩ => ⟨S4x197x768, .f32⟩
  | .local _ .vmem, ⟨1, _⟩ => ⟨S4x197x768, .f32⟩
  | .local _ .vmem, ⟨2, _⟩ => ⟨S4x197x768, .f32⟩
  | .local _ .vmem, ⟨3, _⟩ => ⟨S4x197x768, .f32⟩
  | .local _ .vmem, ⟨4, _⟩ => ⟨S4x768x128, .f32⟩
  | .local _ .vmem, ⟨5, _⟩ => ⟨S4x1x128, .f32⟩
  | .local _ .vmem, ⟨6, _⟩ => ⟨S4x128x768, .f32⟩
  | .local _ .vmem, ⟨7, _⟩ => ⟨S4x1x768, .f32⟩
  | .local _ .smem, ⟨0, _⟩ => ⟨S128, .i32⟩
  | _, _ => ⟨S128x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v12 : Ref sig .tc := ⟨.hbm, 25, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_off3 (v3 : BitVec 32) : Fin 3 → Nat :=
  let c0_i32_10 : BitVec 32 := 0#32
  let c0_i32_11 : BitVec 32 := 0#32
  ![v3.toNat, 0, 0]
def k0_off4 (v3 : BitVec 32) : Fin 3 → Nat :=
  let c0_i32_16 : BitVec 32 := 0#32
  let c0_i32_17 : BitVec 32 := 0#32
  ![v3.toNat, 0, 0]
def k0_off5 (v3 : BitVec 32) : Fin 3 → Nat :=
  let c0_i32_22 : BitVec 32 := 0#32
  let c0_i32_23 : BitVec 32 := 0#32
  ![v3.toNat, 0, 0]
def k0_off6 (i : grid0.Coords) : Fin 1 → Nat :=
  let arg0 : BitVec 32 := BitVec.ofNat 32 (i 0).val
  let c4_i32 : BitVec 32 := 4#32
  let v0 : BitVec 32 := Scalar.muli arg0 c4_i32
  let c1_i32 : BitVec 32 := 1#32
  let v28 : BitVec 32 := Scalar.addi v0 c1_i32
  let v29 : Index := Scalar.indexCast v28
  ![v29.toNat]
def k0_off7 (v30 : BitVec 32) : Fin 3 → Nat :=
  let c0_i32_28 : BitVec 32 := 0#32
  let c0_i32_29 : BitVec 32 := 0#32
  ![v30.toNat, 0, 0]

def k0_off8 (v30 : BitVec 32) : Fin 3 → Nat :=
  let c0_i32_34 : BitVec 32 := 0#32
  let c0_i32_35 : BitVec 32 := 0#32
  ![v30.toNat, 0, 0]
def k0_off9 (v30 : BitVec 32) : Fin 3 → Nat :=
  let c0_i32_40 : BitVec 32 := 0#32
  let c0_i32_41 : BitVec 32 := 0#32
  ![v30.toNat, 0, 0]
def k0_off10 (v30 : BitVec 32) : Fin 3 → Nat :=
  let c0_i32_46 : BitVec 32 := 0#32
  let c0_i32_47 : BitVec 32 := 0#32
  ![v30.toNat, 0, 0]
def k0_off11 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v55 : BitVec 32 := Scalar.addi v0 c2_i32
  let v56 : Index := Scalar.indexCast v55
  ![v56.toNat]
def k0_off12 (v57 : BitVec 32) : Fin 3 → Nat :=
  let c0_i32_52 : BitVec 32 := 0#32
  let c0_i32_53 : BitVec 32 := 0#32
  ![v57.toNat, 0, 0]

def k0_off13 (v57 : BitVec 32) : Fin 3 → Nat :=
  let c0_i32_58 : BitVec 32 := 0#32
  let c0_i32_59 : BitVec 32 := 0#32
  ![v57.toNat, 0, 0]
def k0_off14 (v57 : BitVec 32) : Fin 3 → Nat :=
  let c0_i32_64 : BitVec 32 := 0#32
  let c0_i32_65 : BitVec 32 := 0#32
  ![v57.toNat, 0, 0]
def k0_off15 (v57 : BitVec 32) : Fin 3 → Nat :=
  let c0_i32_70 : BitVec 32 := 0#32
  let c0_i32_71 : BitVec 32 := 0#32
  ![v57.toNat, 0, 0]
def k0_off16 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v82 : BitVec 32 := Scalar.addi v0 c3_i32
  let v83 : Index := Scalar.indexCast v82
  ![v83.toNat]
def k0_off17 (v84 : BitVec 32) : Fin 3 → Nat :=
  let c0_i32_76 : BitVec 32 := 0#32
  let c0_i32_77 : BitVec 32 := 0#32
  ![v84.toNat, 0, 0]

def k0_off18 (v84 : BitVec 32) : Fin 3 → Nat :=
  let c0_i32_82 : BitVec 32 := 0#32
  let c0_i32_83 : BitVec 32 := 0#32
  ![v84.toNat, 0, 0]
def k0_off19 (v84 : BitVec 32) : Fin 3 → Nat :=
  let c0_i32_88 : BitVec 32 := 0#32
  let c0_i32_89 : BitVec 32 := 0#32
  ![v84.toNat, 0, 0]
def k0_off20 (v84 : BitVec 32) : Fin 3 → Nat :=
  let c0_i32_94 : BitVec 32 := 0#32
  let c0_i32_95 : BitVec 32 := 0#32
  ![v84.toNat, 0, 0]

def k0_chk4 (v84 : BitVec 32) : Prop :=
  (∀ a, (k0_off17 v84) a + S1x768x128.size a ≤ S120x768x128.size a) ∧
  (∀ a, (k0_off18 v84) a + S1x1x128.size a ≤ S120x1x128.size a) ∧
  (∀ a, (k0_off19 v84) a + S1x128x768.size a ≤ S120x128x768.size a) ∧
  (∀ a, (k0_off20 v84) a + S1x1x768.size a ≤ S120x1x768.size a)
instance k0_chk4.dec : ∀ (v84 : BitVec 32), Decidable (k0_chk4 v84) := fun v84 => decidable_of_iff' _ (Iff.of_eq (k0_chk4.eq_1 v84))
theorem k0_off17_inb : ∀ (v84 : BitVec 32) (k0_hw4 : k0_chk4 v84), ∀ a, (k0_off17 v84) a + S1x768x128.size a ≤ S120x768x128.size a := fun v84 k0_hw4 => k0_hw4.1
theorem k0_off18_inb : ∀ (v84 : BitVec 32) (k0_hw4 : k0_chk4 v84), ∀ a, (k0_off18 v84) a + S1x1x128.size a ≤ S120x1x128.size a := fun v84 k0_hw4 => k0_hw4.2.1
theorem k0_off19_inb : ∀ (v84 : BitVec 32) (k0_hw4 : k0_chk4 v84), ∀ a, (k0_off19 v84) a + S1x128x768.size a ≤ S120x128x768.size a := fun v84 k0_hw4 => k0_hw4.2.2.1
theorem k0_off20_inb : ∀ (v84 : BitVec 32) (k0_hw4 : k0_chk4 v84), ∀ a, (k0_off20 v84) a + S1x1x768.size a ≤ S120x1x768.size a := fun v84 k0_hw4 => k0_hw4.2.2.2

def k0_off21 (v3 : BitVec 32) : Fin 3 → Nat :=
  let c0_i32_100 : BitVec 32 := 0#32
  let c0_i32_101 : BitVec 32 := 0#32
  ![v3.toNat, 0, 0]
def k0_off22 (v3 : BitVec 32) : Fin 3 → Nat :=
  let c0_i32_106 : BitVec 32 := 0#32
  let c0_i32_107 : BitVec 32 := 0#32
  ![v3.toNat, 0, 0]
def k0_off23 (v3 : BitVec 32) : Fin 3 → Nat :=
  let c0_i32_112 : BitVec 32 := 0#32
  let c0_i32_113 : BitVec 32 := 0#32
  ![v3.toNat, 0, 0]
def k0_off24 (v3 : BitVec 32) : Fin 3 → Nat :=
  let c0_i32_118 : BitVec 32 := 0#32
  let c0_i32_119 : BitVec 32 := 0#32
  ![v3.toNat, 0, 0]

def k0_chk1 (v3 : BitVec 32) : Prop :=
  (∀ a, (k0_off2 v3) a + S1x768x128.size a ≤ S120x768x128.size a) ∧
  (∀ a, (k0_off3 v3) a + S1x1x128.size a ≤ S120x1x128.size a) ∧
  (∀ a, (k0_off4 v3) a + S1x128x768.size a ≤ S120x128x768.size a) ∧
  (∀ a, (k0_off5 v3) a + S1x1x768.size a ≤ S120x1x768.size a) ∧
  (∀ a, (k0_off21 v3) a + S1x768x128.size a ≤ S120x768x128.size a) ∧
  (∀ a, (k0_off22 v3) a + S1x1x128.size a ≤ S120x1x128.size a) ∧
  (∀ a, (k0_off23 v3) a + S1x128x768.size a ≤ S120x128x768.size a) ∧
  (∀ a, (k0_off24 v3) a + S1x1x768.size a ≤ S120x1x768.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x768x128.size a ≤ S120x768x128.size a := fun v3 k0_hw1 => k0_hw1.1
theorem k0_off3_inb : ∀ (v3 : BitVec 32) (k0_hw1 : k0_chk1 v3), ∀ a, (k0_off3 v3) a + S1x1x128.size a ≤ S120x1x128.size a := fun v3 k0_hw1 => k0_hw1.2.1
theorem k0_off4_inb : ∀ (v3 : BitVec 32) (k0_hw1 : k0_chk1 v3), ∀ a, (k0_off4 v3) a + S1x128x768.size a ≤ S120x128x768.size a := fun v3 k0_hw1 => k0_hw1.2.2.1
theorem k0_off5_inb : ∀ (v3 : BitVec 32) (k0_hw1 : k0_chk1 v3), ∀ a, (k0_off5 v3) a + S1x1x768.size a ≤ S120x1x768.size a := fun v3 k0_hw1 => k0_hw1.2.2.2.1
theorem k0_off21_inb : ∀ (v3 : BitVec 32) (k0_hw1 : k0_chk1 v3), ∀ a, (k0_off21 v3) a + S1x768x128.size a ≤ S120x768x128.size a := fun v3 k0_hw1 => k0_hw1.2.2.2.2.1
theorem k0_off22_inb : ∀ (v3 : BitVec 32) (k0_hw1 : k0_chk1 v3), ∀ a, (k0_off22 v3) a + S1x1x128.size a ≤ S120x1x128.size a := fun v3 k0_hw1 => k0_hw1.2.2.2.2.2.1
theorem k0_off23_inb : ∀ (v3 : BitVec 32) (k0_hw1 : k0_chk1 v3), ∀ a, (k0_off23 v3) a + S1x128x768.size a ≤ S120x128x768.size a := fun v3 k0_hw1 => k0_hw1.2.2.2.2.2.2.1
theorem k0_off24_inb : ∀ (v3 : BitVec 32) (k0_hw1 : k0_chk1 v3), ∀ a, (k0_off24 v3) a + S1x1x768.size a ≤ S120x1x768.size a := fun v3 k0_hw1 => k0_hw1.2.2.2.2.2.2.2

def k0_off25 (v30 : BitVec 32) : Fin 3 → Nat :=
  let c0_i32_144 : BitVec 32 := 0#32
  let c0_i32_145 : BitVec 32 := 0#32
  ![v30.toNat, 0, 0]
def k0_off26 (v30 : BitVec 32) : Fin 3 → Nat :=
  let c0_i32_150 : BitVec 32 := 0#32
  let c0_i32_151 : BitVec 32 := 0#32
  ![v30.toNat, 0, 0]
def k0_off27 (v30 : BitVec 32) : Fin 3 → Nat :=
  let c0_i32_156 : BitVec 32 := 0#32
  let c0_i32_157 : BitVec 32 := 0#32
  ![v30.toNat, 0, 0]
def k0_off28 (v30 : BitVec 32) : Fin 3 → Nat :=
  let c0_i32_162 : BitVec 32 := 0#32
  let c0_i32_163 : BitVec 32 := 0#32
  ![v30.toNat, 0, 0]

def k0_chk2 (v30 : BitVec 32) : Prop :=
  (∀ a, (k0_off7 v30) a + S1x768x128.size a ≤ S120x768x128.size a) ∧
  (∀ a, (k0_off8 v30) a + S1x1x128.size a ≤ S120x1x128.size a) ∧
  (∀ a, (k0_off9 v30) a + S1x128x768.size a ≤ S120x128x768.size a) ∧
  (∀ a, (k0_off10 v30) a + S1x1x768.size a ≤ S120x1x768.size a) ∧
  (∀ a, (k0_off25 v30) a + S1x768x128.size a ≤ S120x768x128.size a) ∧
  (∀ a, (k0_off26 v30) a + S1x1x128.size a ≤ S120x1x128.size a) ∧
  (∀ a, (k0_off27 v30) a + S1x128x768.size a ≤ S120x128x768.size a) ∧
  (∀ a, (k0_off28 v30) a + S1x1x768.size a ≤ S120x1x768.size a)
instance k0_chk2.dec : ∀ (v30 : BitVec 32), Decidable (k0_chk2 v30) := fun v30 => decidable_of_iff' _ (Iff.of_eq (k0_chk2.eq_1 v30))
theorem k0_off7_inb : ∀ (v30 : BitVec 32) (k0_hw2 : k0_chk2 v30), ∀ a, (k0_off7 v30) a + S1x768x128.size a ≤ S120x768x128.size a := fun v30 k0_hw2 => k0_hw2.1
theorem k0_off8_inb : ∀ (v30 : BitVec 32) (k0_hw2 : k0_chk2 v30), ∀ a, (k0_off8 v30) a + S1x1x128.size a ≤ S120x1x128.size a := fun v30 k0_hw2 => k0_hw2.2.1
theorem k0_off9_inb : ∀ (v30 : BitVec 32) (k0_hw2 : k0_chk2 v30), ∀ a, (k0_off9 v30) a + S1x128x768.size a ≤ S120x128x768.size a := fun v30 k0_hw2 => k0_hw2.2.2.1
theorem k0_off10_inb : ∀ (v30 : BitVec 32) (k0_hw2 : k0_chk2 v30), ∀ a, (k0_off10 v30) a + S1x1x768.size a ≤ S120x1x768.size a := fun v30 k0_hw2 => k0_hw2.2.2.2.1
theorem k0_off25_inb : ∀ (v30 : BitVec 32) (k0_hw2 : k0_chk2 v30), ∀ a, (k0_off25 v30) a + S1x768x128.size a ≤ S120x768x128.size a := fun v30 k0_hw2 => k0_hw2.2.2.2.2.1
theorem k0_off26_inb : ∀ (v30 : BitVec 32) (k0_hw2 : k0_chk2 v30), ∀ a, (k0_off26 v30) a + S1x1x128.size a ≤ S120x1x128.size a := fun v30 k0_hw2 => k0_hw2.2.2.2.2.2.1
theorem k0_off27_inb : ∀ (v30 : BitVec 32) (k0_hw2 : k0_chk2 v30), ∀ a, (k0_off27 v30) a + S1x128x768.size a ≤ S120x128x768.size a := fun v30 k0_hw2 => k0_hw2.2.2.2.2.2.2.1
theorem k0_off28_inb : ∀ (v30 : BitVec 32) (k0_hw2 : k0_chk2 v30), ∀ a, (k0_off28 v30) a + S1x1x768.size a ≤ S120x1x768.size a := fun v30 k0_hw2 => k0_hw2.2.2.2.2.2.2.2

def k0_off29 (v57 : BitVec 32) : Fin 3 → Nat :=
  let c0_i32_189 : BitVec 32 := 0#32
  let c0_i32_190 : BitVec 32 := 0#32
  ![v57.toNat, 0, 0]
def k0_off30 (v57 : BitVec 32) : Fin 3 → Nat :=
  let c0_i32_195 : BitVec 32 := 0#32
  let c0_i32_196 : BitVec 32 := 0#32
  ![v57.toNat, 0, 0]
def k0_off31 (v57 : BitVec 32) : Fin 3 → Nat :=
  let c0_i32_201 : BitVec 32 := 0#32
  let c0_i32_202 : BitVec 32 := 0#32
  ![v57.toNat, 0, 0]
def k0_off32 (v57 : BitVec 32) : Fin 3 → Nat :=
  let c0_i32_207 : BitVec 32 := 0#32
  let c0_i32_208 : BitVec 32 := 0#32
  ![v57.toNat, 0, 0]

def k0_chk3 (v57 : BitVec 32) : Prop :=
  (∀ a, (k0_off12 v57) a + S1x768x128.size a ≤ S120x768x128.size a) ∧
  (∀ a, (k0_off13 v57) a + S1x1x128.size a ≤ S120x1x128.size a) ∧
  (∀ a, (k0_off14 v57) a + S1x128x768.size a ≤ S120x128x768.size a) ∧
  (∀ a, (k0_off15 v57) a + S1x1x768.size a ≤ S120x1x768.size a) ∧
  (∀ a, (k0_off29 v57) a + S1x768x128.size a ≤ S120x768x128.size a) ∧
  (∀ a, (k0_off30 v57) a + S1x1x128.size a ≤ S120x1x128.size a) ∧
  (∀ a, (k0_off31 v57) a + S1x128x768.size a ≤ S120x128x768.size a) ∧
  (∀ a, (k0_off32 v57) a + S1x1x768.size a ≤ S120x1x768.size a)
instance k0_chk3.dec : ∀ (v57 : BitVec 32), Decidable (k0_chk3 v57) := fun v57 => decidable_of_iff' _ (Iff.of_eq (k0_chk3.eq_1 v57))
theorem k0_off12_inb : ∀ (v57 : BitVec 32) (k0_hw3 : k0_chk3 v57), ∀ a, (k0_off12 v57) a + S1x768x128.size a ≤ S120x768x128.size a := fun v57 k0_hw3 => k0_hw3.1
theorem k0_off13_inb : ∀ (v57 : BitVec 32) (k0_hw3 : k0_chk3 v57), ∀ a, (k0_off13 v57) a + S1x1x128.size a ≤ S120x1x128.size a := fun v57 k0_hw3 => k0_hw3.2.1
theorem k0_off14_inb : ∀ (v57 : BitVec 32) (k0_hw3 : k0_chk3 v57), ∀ a, (k0_off14 v57) a + S1x128x768.size a ≤ S120x128x768.size a := fun v57 k0_hw3 => k0_hw3.2.2.1
theorem k0_off15_inb : ∀ (v57 : BitVec 32) (k0_hw3 : k0_chk3 v57), ∀ a, (k0_off15 v57) a + S1x1x768.size a ≤ S120x1x768.size a := fun v57 k0_hw3 => k0_hw3.2.2.2.1
theorem k0_off29_inb : ∀ (v57 : BitVec 32) (k0_hw3 : k0_chk3 v57), ∀ a, (k0_off29 v57) a + S1x768x128.size a ≤ S120x768x128.size a := fun v57 k0_hw3 => k0_hw3.2.2.2.2.1
theorem k0_off30_inb : ∀ (v57 : BitVec 32) (k0_hw3 : k0_chk3 v57), ∀ a, (k0_off30 v57) a + S1x1x128.size a ≤ S120x1x128.size a := fun v57 k0_hw3 => k0_hw3.2.2.2.2.2.1
theorem k0_off31_inb : ∀ (v57 : BitVec 32) (k0_hw3 : k0_chk3 v57), ∀ a, (k0_off31 v57) a + S1x128x768.size a ≤ S120x128x768.size a := fun v57 k0_hw3 => k0_hw3.2.2.2.2.2.2.1
theorem k0_off32_inb : ∀ (v57 : BitVec 32) (k0_hw3 : k0_chk3 v57), ∀ a, (k0_off32 v57) a + S1x1x768.size a ≤ S120x1x768.size a := fun v57 k0_hw3 => k0_hw3.2.2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x197x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S10x12x768x64_S120x768x64 : S10x12x768x64.ShapeCasts S120x768x64
  pads_S120x768x64_S120x768x128_000_000_0640 : S120x768x64.Pads (![0, 0, 0] : Fin 3 → Nat) ![0, 0, 64] ![0, 0, 0] S120x768x128
  h_S_ : 0 < S_.numel
  shapeCasts_S10x12x64x768_S120x64x768 : S10x12x64x768.ShapeCasts S120x64x768
  pads_S120x64x768_S120x128x768_000_0640_000 : S120x64x768.Pads (![0, 0, 0] : Fin 3 → Nat) ![0, 64, 0] ![0, 0, 0] S120x128x768
  shapeCasts_S10x12x64_S120x64 : S10x12x64.ShapeCasts S120x64
  bcast_S120x64_S120x1x64_0_2 : S120x64.BroadcastsInDim S120x1x64 (![0, 2] : Fin 2 → Fin S120x1x64.rank)
  pads_S120x1x64_S120x1x128_000_000_0640 : S120x1x64.Pads (![0, 0, 0] : Fin 3 → Nat) ![0, 0, 64] ![0, 0, 0] S120x1x128
  shapeCasts_S10x12x768_S120x768 : S10x12x768.ShapeCasts S120x768
  bcast_S120x768_S120x1x768_0_2 : S120x768.BroadcastsInDim S120x1x768 (![0, 2] : Fin 2 → Fin S120x1x768.rank)
  bcast_S_S128 : S_.BroadcastsInDim S128 (![] : Fin 0 → Fin S128.rank)
  numel1_S1 : S1.numel = 1
  inb_S4_S1_0 : ∀ a, (![0] : Fin 1 → Nat) a + S1.size a ≤ S4.size a
  squeezes_S1_S_ : S1.Squeezes S_
  inb_S4x768x128_S1x768x128_0_0_0 : ∀ a, (![0, 0, 0] : Fin 3 → Nat) a + S1x768x128.size a ≤ S4x768x128.size a
  squeezes_S1x768x128_S768x128 : S1x768x128.Squeezes S768x128
  inb_S4x1x128_S1x1x128_0_0_0 : ∀ a, (![0, 0, 0] : Fin 3 → Nat) a + S1x1x128.size a ≤ S4x1x128.size a
  squeezes_S1x1x128_S1x128 : S1x1x128.Squeezes S1x128
  inb_S4x128x768_S1x128x768_0_0_0 : ∀ a, (![0, 0, 0] : Fin 3 → Nat) a + S1x128x768.size a ≤ S4x128x768.size a
  squeezes_S1x128x768_S128x768 : S1x128x768.Squeezes S128x768
  inb_S4x1x768_S1x1x768_0_0_0 : ∀ a, (![0, 0, 0] : Fin 3 → Nat) a + S1x1x768.size a ≤ S4x1x768.size a
  squeezes_S1x1x768_S1x768 : S1x1x768.Squeezes S1x768
  inb_S4_S1_1 : ∀ a, (![1] : Fin 1 → Nat) a + S1.size a ≤ S4.size a
  inb_S4x768x128_S1x768x128_1_0_0 : ∀ a, (![1, 0, 0] : Fin 3 → Nat) a + S1x768x128.size a ≤ S4x768x128.size a
  inb_S4x1x128_S1x1x128_1_0_0 : ∀ a, (![1, 0, 0] : Fin 3 → Nat) a + S1x1x128.size a ≤ S4x1x128.size a
  inb_S4x128x768_S1x128x768_1_0_0 : ∀ a, (![1, 0, 0] : Fin 3 → Nat) a + S1x128x768.size a ≤ S4x128x768.size a
  inb_S4x1x768_S1x1x768_1_0_0 : ∀ a, (![1, 0, 0] : Fin 3 → Nat) a + S1x1x768.size a ≤ S4x1x768.size a
  inb_S4_S1_2 : ∀ a, (![2] : Fin 1 → Nat) a + S1.size a ≤ S4.size a
  inb_S4x768x128_S1x768x128_2_0_0 : ∀ a, (![2, 0, 0] : Fin 3 → Nat) a + S1x768x128.size a ≤ S4x768x128.size a
  inb_S4x1x128_S1x1x128_2_0_0 : ∀ a, (![2, 0, 0] : Fin 3 → Nat) a + S1x1x128.size a ≤ S4x1x128.size a
  inb_S4x128x768_S1x128x768_2_0_0 : ∀ a, (![2, 0, 0] : Fin 3 → Nat) a + S1x128x768.size a ≤ S4x128x768.size a
  inb_S4x1x768_S1x1x768_2_0_0 : ∀ a, (![2, 0, 0] : Fin 3 → Nat) a + S1x1x768.size a ≤ S4x1x768.size a
  inb_S4_S1_3 : ∀ a, (![3] : Fin 1 → Nat) a + S1.size a ≤ S4.size a
  inb_S4x768x128_S1x768x128_3_0_0 : ∀ a, (![3, 0, 0] : Fin 3 → Nat) a + S1x768x128.size a ≤ S4x768x128.size a
  inb_S4x1x128_S1x1x128_3_0_0 : ∀ a, (![3, 0, 0] : Fin 3 → Nat) a + S1x1x128.size a ≤ S4x1x128.size a
  inb_S4x128x768_S1x128x768_3_0_0 : ∀ a, (![3, 0, 0] : Fin 3 → Nat) a + S1x128x768.size a ≤ S4x128x768.size a
  inb_S4x1x768_S1x1x768_3_0_0 : ∀ a, (![3, 0, 0] : Fin 3 → Nat) a + S1x1x768.size a ≤ S4x1x768.size a
  inb_S4x197x768_S1x197x768_0_0_0 : ∀ a, (![0, 0, 0] : Fin 3 → Nat) a + S1x197x768.size a ≤ S4x197x768.size a
  h_S1x197x768 : 0 < S1x197x768.numel
  shapeCasts_S1x197x768_S197x768 : S1x197x768.ShapeCasts S197x768
  h_S1x768x128 : 0 < S1x768x128.numel
  shapeCasts_S1x768x128_S768x128 : S1x768x128.ShapeCasts S768x128
  h_S1x1x128 : 0 < S1x1x128.numel
  shapeCasts_S1x1x128_S128 : S1x1x128.ShapeCasts S128
  h_S1x128x768 : 0 < S1x128x768.numel
  shapeCasts_S1x128x768_S128x768 : S1x128x768.ShapeCasts S128x768
  h_S1x1x768 : 0 < S1x1x768.numel
  shapeCasts_S1x1x768_S768 : S1x1x768.ShapeCasts S768
  bitsLt_bf16_f32 : FTy.bits .bf16 < FTy.bits .f32
  shapeCasts_S128_S1x128 : S128.ShapeCasts S1x128
  broadcasts_S1x128_S197x128 : S1x128.Broadcasts S197x128
  shapeCasts_S768_S1x768 : S768.ShapeCasts S1x768
  broadcasts_S1x768_S197x768 : S1x768.Broadcasts S197x768
  shapeCasts_S197x768_S1x197x768 : S197x768.ShapeCasts S1x197x768
  inb_S4x197x768_S1x197x768_1_0_0 : ∀ a, (![1, 0, 0] : Fin 3 → Nat) a + S1x197x768.size a ≤ S4x197x768.size a
  inb_S4x197x768_S1x197x768_2_0_0 : ∀ a, (![2, 0, 0] : Fin 3 → Nat) a + S1x197x768.size a ≤ S4x197x768.size a
  inb_S4x197x768_S1x197x768_3_0_0 : ∀ a, (![3, 0, 0] : Fin 3 → Nat) a + S1x197x768.size a ≤ S4x197x768.size a
  dot_S197x768_S768x128_S197x128_1_0_0_1_n_n_wf : DotDims.WF S197x768 S768x128 S197x128 [1] [0] [0] [1] [] []
  dot_S197x128_S128x768_S197x768_1_0_0_1_n_n_wf : DotDims.WF S197x128 S128x768 S197x768 [1] [0] [0] [1] [] []
  hcc0_scratch4 : 4 + S4.numel ≤ 20
  hcc0_scratch5 : 8 + S4.numel ≤ 20
  hcc0_scratch6 : 12 + S4.numel ≤ 20
  hcc0_scratch7 : 16 + S4.numel ≤ 20
  hrank0 : 0 < grid0.rank
  k0_off1_inb : ∀ i : grid0.Coords, ∀ a, (k0_off1 i) a + S1.size a ≤ S128.size a
  k0_off6_inb : ∀ i : grid0.Coords, ∀ a, (k0_off6 i) a + S1.size a ≤ S128.size a
  k0_off11_inb : ∀ i : grid0.Coords, ∀ a, (k0_off11 i) a + S1.size a ≤ S128.size a
  k0_off16_inb : ∀ i : grid0.Coords, ∀ a, (k0_off16 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x197x768.size a ≤ S128x197x768.size a
  hwx0_0 : ∀ i : grid0.Coords, EltTy.bits .f32 = 32 ∨ (Rect.block (s := S128x197x768) S4x197x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_5 i = cc0_transform_5 i'
  hinb0_1 : ∀ (i : grid0.Coords) a, (cc0_transform_5 i a + 1) * S4x197x768.size a ≤ S128x197x768.size a
  hwx0_1 : ∀ i : grid0.Coords, EltTy.bits .f32 = 32 ∨ (Rect.block (s := S128x197x768) S4x197x768.size (cc0_transform_5 i) (hinb0_1 i)).WholeWords (EltTy.packing .f32)

variable [Facts₀]

abbrev cc0_scratch4 : DmaSems sig S4 := SemArray.consecutive 4 S4 hcc0_scratch4
abbrev cc0_scratch5 : DmaSems sig S4 := SemArray.consecutive 8 S4 hcc0_scratch5
abbrev cc0_scratch6 : DmaSems sig S4 := SemArray.consecutive 12 S4 hcc0_scratch6
abbrev cc0_scratch7 : DmaSems sig S4 := SemArray.consecutive 16 S4 hcc0_scratch7
def dot_S197x768_S768x128_S197x128_1_0_0_1_n_n : DotDims S197x768 S768x128 S197x128 where
  lhsContracting := [1]
  rhsContracting := [0]
  lhsNonContracting := [0]
  rhsNonContracting := [1]
  lhsBatch := []
  rhsBatch := []
  wf := dot_S197x768_S768x128_S197x128_1_0_0_1_n_n_wf
def dot_S197x128_S128x768_S197x768_1_0_0_1_n_n : DotDims S197x128 S128x768 S197x768 where
  lhsContracting := [1]
  rhsContracting := [0]
  lhsNonContracting := [0]
  rhsNonContracting := [1]
  lhsBatch := []
  rhsBatch := []
  wf := dot_S197x128_S128x768_S197x768_1_0_0_1_n_n_wf

abbrev spec0_0 : Pipeline.WinSpec sig grid0.rank :=
  Pipeline.WinSpec.ofSpec (Memref.whole main_arg0) S4x197x768.size reads0_0 false false 2 stage0_0 sem0_0 nbuf0_0 hstage0_0

abbrev spec0_1 : Pipeline.WinSpec sig grid0.rank :=
  Pipeline.WinSpec.ofSpec (Memref.whole main_v12) S4x197x768.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_5 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S128x197x768 : Shape := ⟨3, ![128, 197, 768]⟩
abbrev S10x12x768x64 : Shape := ⟨4, ![10, 12, 768, 64]⟩
abbrev S10x12x64 : Shape := ⟨3, ![10, 12, 64]⟩
abbrev S10x12x64x768 : Shape := ⟨4, ![10, 12, 64, 768]⟩
abbrev S10x12x768 : Shape := ⟨3, ![10, 12, 768]⟩
abbrev S128 : Shape := ⟨1, ![128]⟩
abbrev S_ : Shape := ⟨0, ![]⟩
abbrev S128x1 : Shape := ⟨2, ![128, 1]⟩
abbrev S128x2 : Shape := ⟨2, ![128, 2]⟩
abbrev S128x768x64 : Shape := ⟨3, ![128, 768, 64]⟩
abbrev S128x64 : Shape := ⟨2, ![128, 64]⟩
abbrev S128x64x768 : Shape := ⟨3, ![128, 64, 768]⟩
abbrev S128x768 : Shape := ⟨2, ![128, 768]⟩
abbrev S128x197x64 : Shape := ⟨3, ![128, 197, 64]⟩
abbrev S128x1x64 : Shape := ⟨3, ![128, 1, 64]⟩
abbrev S128x1x768 : Shape := ⟨3, ![128, 1, 768]⟩

abbrev nBuf : Space → Nat
  | .hbm => 94
  | .vmem => 0
  | .smem => 0
  | _ => 0

abbrev bufTy : (tb : Table) → Fin (tcTables nBuf tb) → BufTy
  | .hbm, ⟨0, _⟩ => ⟨S128x197x768, .f32⟩
  | .hbm, ⟨1, _⟩ => ⟨S10x12x768x64, .f32⟩
  | .hbm, ⟨2, _⟩ => ⟨S10x12x64, .f32⟩
  | .hbm, ⟨3, _⟩ => ⟨S10x12x64x768, .f32⟩
  | .hbm, ⟨4, _⟩ => ⟨S10x12x768, .f32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S128x1, .i32⟩
  | .hbm, ⟨23, _⟩ => ⟨S128x2, .i32⟩
  | .hbm, ⟨24, _⟩ => ⟨S128x768x64, .f32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128x1, .i32⟩
  | .hbm, ⟨41, _⟩ => ⟨S128x2, .i32⟩
  | .hbm, ⟨42, _⟩ => ⟨S128x64, .f32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S128x1, .i32⟩
  | .hbm, ⟨58, _⟩ => ⟨S128x1, .i32⟩
  | .hbm, ⟨59, _⟩ => ⟨S128x2, .i32⟩
  | .hbm, ⟨60, _⟩ => ⟨S128x64x768, .f32⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S128x1, .i32⟩
  | .hbm, ⟨76, _⟩ => ⟨S128x1, .i32⟩
  | .hbm, ⟨77, _⟩ => ⟨S128x2, .i32⟩
  | .hbm, ⟨78, _⟩ => ⟨S128x768, .f32⟩
  | .hbm, ⟨79, _⟩ => ⟨S128x197x64, .f32⟩
  | .hbm, ⟨80, _⟩ => ⟨S128x1x64, .f32⟩
  | .hbm, ⟨81, _⟩ => ⟨S128x197x64, .f32⟩
  | .hbm, ⟨82, _⟩ => ⟨S128x197x64, .f32⟩
  | .hbm, ⟨83, _⟩ => ⟨S_, .f32⟩
  | .hbm, ⟨84, _⟩ => ⟨S128x197x64, .f32⟩
  | .hbm, ⟨85, _⟩ => ⟨S128x197x64, .f32⟩
  | .hbm, ⟨86, _⟩ => ⟨S128x197x768, .f32⟩
  | .hbm, ⟨87, _⟩ => ⟨S128x1x768, .f32⟩
  | .hbm, ⟨88, _⟩ => ⟨S128x197x768, .f32⟩
  | .hbm, ⟨89, _⟩ => ⟨S128x197x768, .f32⟩
  | .hbm, ⟨90, _⟩ => ⟨S_, .f32⟩
  | .hbm, ⟨91, _⟩ => ⟨S128x197x768, .f32⟩
  | .hbm, ⟨92, _⟩ => ⟨S128x197x768, .f32⟩
  | .hbm, ⟨93, _⟩ => ⟨S128x197x768, .f32⟩
  | _, _ => ⟨S128x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_13 : Ref sig .tc := ⟨.hbm, 68, rfl⟩
abbrev main_v47 : Ref sig .tc := ⟨.hbm, 69, rfl⟩
abbrev main_v48 : Ref sig .tc := ⟨.hbm, 70, rfl⟩
abbrev main_c_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call0_cst : Ref sig .tc := ⟨.hbm, 83, rfl⟩
abbrev main_call0_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S128x64_S128x1x64_0_2 : S128x64.BroadcastsInDim S128x1x64 (![0, 2] : Fin 2 → Fin S128x1x64.rank)
  bcast_S128x1x64_S128x197x64_0_1_2 : S128x1x64.BroadcastsInDim S128x197x64 (![0, 1, 2] : Fin 3 → Fin S128x197x64.rank)
  bcast_S_S128x197x64 : S_.BroadcastsInDim S128x197x64 (![] : Fin 0 → Fin S128x197x64.rank)
  bcast_S128x768_S128x1x768_0_2 : S128x768.BroadcastsInDim S128x1x768 (![0, 2] : Fin 2 → Fin S128x1x768.rank)
  bcast_S128x1x768_S128x197x768_0_1_2 : S128x1x768.BroadcastsInDim S128x197x768 (![0, 1, 2] : Fin 3 → Fin S128x197x768.rank)
  bcast_S_S128x197x768 : S_.BroadcastsInDim S128x197x768 (![] : Fin 0 → Fin S128x197x768.rank)
  gather_S10x12x768x64_S128x2_S128x768x64_12_01_n_n_01_1_1176864_wf : GatherDims.WF S10x12x768x64 S128x2 S128x768x64 [1, 2] [0, 1] [] [0, 1] [] 1 ![1, 1, 768, 64]
  gather_S10x12x64_S128x2_S128x64_1_01_n_n_01_1_1164_wf : GatherDims.WF S10x12x64 S128x2 S128x64 [1] [0, 1] [] [0, 1] [] 1 ![1, 1, 64]
  gather_S10x12x64x768_S128x2_S128x64x768_12_01_n_n_01_1_1164768_wf : GatherDims.WF S10x12x64x768 S128x2 S128x64x768 [1, 2] [0, 1] [] [0, 1] [] 1 ![1, 1, 64, 768]
  gather_S10x12x768_S128x2_S128x768_1_01_n_n_01_1_11768_wf : GatherDims.WF S10x12x768 S128x2 S128x768 [1] [0, 1] [] [0, 1] [] 1 ![1, 1, 768]
  dot_S128x197x768_S128x768x64_S128x197x64_2_1_1_2_0_0_wf : DotDims.WF S128x197x768 S128x768x64 S128x197x64 [2] [1] [1] [2] [0] [0]
  dot_S128x197x64_S128x64x768_S128x197x768_2_1_1_2_0_0_wf : DotDims.WF S128x197x64 S128x64x768 S128x197x768 [2] [1] [1] [2] [0] [0]

variable [Facts₀]

def gather_S10x12x768x64_S128x2_S128x768x64_12_01_n_n_01_1_1176864 : GatherDims S10x12x768x64 S128x2 S128x768x64 where
  offsetDims := [1, 2]
  collapsedSliceDims := [0, 1]
  operandBatchingDims := []
  startIndicesBatchingDims := []
  startIndexMap := [0, 1]
  indexVectorDim := 1
  sliceSizes := ![1, 1, 768, 64]
  wf := gather_S10x12x768x64_S128x2_S128x768x64_12_01_n_n_01_1_1176864_wf
def gather_S10x12x64_S128x2_S128x64_1_01_n_n_01_1_1164 : GatherDims S10x12x64 S128x2 S128x64 where
  offsetDims := [1]
  collapsedSliceDims := [0, 1]
  operandBatchingDims := []
  startIndicesBatchingDims := []
  startIndexMap := [0, 1]
  indexVectorDim := 1
  sliceSizes := ![1, 1, 64]
  wf := gather_S10x12x64_S128x2_S128x64_1_01_n_n_01_1_1164_wf
def gather_S10x12x64x768_S128x2_S128x64x768_12_01_n_n_01_1_1164768 : GatherDims S10x12x64x768 S128x2 S128x64x768 where
  offsetDims := [1, 2]
  collapsedSliceDims := [0, 1]
  operandBatchingDims := []
  startIndicesBatchingDims := []
  startIndexMap := [0, 1]
  indexVectorDim := 1
  sliceSizes := ![1, 1, 64, 768]
  wf := gather_S10x12x64x768_S128x2_S128x64x768_12_01_n_n_01_1_1164768_wf
def gather_S10x12x768_S128x2_S128x768_1_01_n_n_01_1_11768 : GatherDims S10x12x768 S128x2 S128x768 where
  offsetDims := [1]
  collapsedSliceDims := [0, 1]
  operandBatchingDims := []
  startIndicesBatchingDims := []
  startIndexMap := [0, 1]
  indexVectorDim := 1
  sliceSizes := ![1, 1, 768]
  wf := gather_S10x12x768_S128x2_S128x768_1_01_n_n_01_1_11768_wf
def dot_S128x197x768_S128x768x64_S128x197x64_2_1_1_2_0_0 : DotDims S128x197x768 S128x768x64 S128x197x64 where
  lhsContracting := [2]
  rhsContracting := [1]
  lhsNonContracting := [1]
  rhsNonContracting := [2]
  lhsBatch := [0]
  rhsBatch := [0]
  wf := dot_S128x197x768_S128x768x64_S128x197x64_2_1_1_2_0_0_wf
def dot_S128x197x64_S128x64x768_S128x197x768_2_1_1_2_0_0 : DotDims S128x197x64 S128x64x768 S128x197x768 where
  lhsContracting := [2]
  rhsContracting := [1]
  lhsNonContracting := [1]
  rhsNonContracting := [2]
  lhsBatch := [0]
  rhsBatch := [0]
  wf := dot_S128x197x64_S128x64x768_S128x197x768_2_1_1_2_0_0_wf

class Facts : Prop extends Facts₀ where

variable [Facts]
-- ==== Proof.LibSlots.lean ====
/-
  Reading back a slot of a buffer that copies were written into through squeezed unit slices.

  A buffer viewed whole by `v` is written through the view "rectangle `r` of `v`, re-laid to the shape `s'`" (what a copy
  into `buf.at[k]` writes through: the slice at rows `k`, its leading unit axis dropped). A read of `v` through the same
  rectangle then reads the written payload, re-laid back (`readAt_write_self`), whatever the buffer held before; a read
  through a rectangle disjoint from `r` reads what was there before the write (`readAt_write_other`). Two unit-stride
  rectangles whose leading axis has extent one are disjoint as soon as their leading offsets differ
  (`unit3_emb_not_mem`). Together: after copies into slots 0 … 3, a read of slot `n` is copy `n`.
-/
import Idealize.ShloMosaic.Signature.Memref

noncomputable section

namespace Cert.Slots

open Idealize.ShloMosaic

variable {sig : RefSig} {κ : Kind} {sp : Space} {s s' : Shape} {e : EltTy} {Val : EltTy → Type}

/-- A read through the written rectangle reads the payload, re-laid to the rectangle's shape. -/
theorem readAt_write_self (v : View sig κ sp s e) (r : Rect s) (h : s'.numel = r.shape.numel)
    (f : v.ty.Contents Val) (w : s'.Idx → Val e) :
    v.readAt Val r.toLoadRect (((v.slice r).reshape s' h).write Val f w Finset.univ)
      = fun x => w ((Shape.reshapeEquiv h).symm x) := by
  funext x
  have hw := View.read_write_of_mem (v := (v.slice r).reshape s' h) f w (Finset.mem_univ ((Shape.reshapeEquiv h).symm x))
  refine Eq.trans ?_ hw
  rw [View.readAt_apply, View.read_apply, View.read_apply]
  have e1 : ((v.slice r).reshape s' h).emb ((Shape.reshapeEquiv h).symm x) = v.emb (r.toLoadRect.idx x) := by
    simp only [View.emb_reshape, View.emb_slice, Function.Embedding.trans_apply, Equiv.coe_toEmbedding,
      Equiv.apply_symm_apply]
    rfl
  rw [e1]

/-- A read through a rectangle disjoint from the written one reads what was there before. -/
theorem readAt_write_other (v : View sig κ sp s e) (r r' : Rect s) (h : s'.numel = r.shape.numel)
    (f : v.ty.Contents Val) (w : s'.Idx → Val e) (hd : ∀ x', r'.emb x' ∉ r.set) :
    v.readAt Val r'.toLoadRect (((v.slice r).reshape s' h).write Val f w Finset.univ) = v.readAt Val r'.toLoadRect f := by
  funext x
  rw [View.readAt_apply, View.readAt_apply, View.read_apply, View.read_apply]
  have hn : v.emb (r'.toLoadRect.idx x) ∉ ((v.slice r).reshape s' h).setOn Finset.univ := by
    rw [View.setOn_univ, View.set_reshape, View.set_slice]
    intro hm
    exact hd x ((Finset.mem_map' v.emb).mp hm)
  rw [View.write_of_not_mem _ _ _ hn]

/-- Unit-stride rectangles of a rank-3 shape with leading extent one and different leading offsets: no index of one is
    in the other. -/
theorem unit3_emb_not_mem {d : Fin 3 → ℕ} (k n p q p' q' A B : ℕ) (hkn : n ≠ k)
    (inb : ∀ a, (![k, p, q] : Fin 3 → ℕ) a + (![1, A, B] : Fin 3 → ℕ) a ≤ (⟨3, d⟩ : Shape).size a)
    (inb' : ∀ a, (![n, p', q'] : Fin 3 → ℕ) a + (![1, A, B] : Fin 3 → ℕ) a ≤ (⟨3, d⟩ : Shape).size a)
    (x' : (Rect.unit (s := ⟨3, d⟩) ![n, p', q'] ![1, A, B] inb').shape.Idx) :
    (Rect.unit (s := ⟨3, d⟩) ![n, p', q'] ![1, A, B] inb').emb x' ∉ (Rect.unit (s := ⟨3, d⟩) ![k, p, q] ![1, A, B] inb).set := by
  rw [Rect.mem_set_unit]
  intro hm
  have h1 := hm 0
  have hx : (x' 0 : ℕ) < 1 := (x' 0).isLt
  simp only [Rect.emb_apply, Rect.off_unit, Rect.stride_unit, Nat.one_mul] at h1
  simp only [Matrix.cons_val_zero] at h1
  omega

/-- The same for unit slots of a rank-3 buffer: a read of slot `n` does not see a copy written through slot `k ≠ n`. -/
theorem readAt_write_other_unit3 (k n : ℕ) (hkn : n ≠ k) {d : Fin 3 → ℕ} (v : View sig κ sp ⟨3, d⟩ e) {p q p' q' A B : ℕ}
    {inb : ∀ a, (![k, p, q] : Fin 3 → ℕ) a + (![1, A, B] : Fin 3 → ℕ) a ≤ (⟨3, d⟩ : Shape).size a}
    {inb' : ∀ a, (![n, p', q'] : Fin 3 → ℕ) a + (![1, A, B] : Fin 3 → ℕ) a ≤ (⟨3, d⟩ : Shape).size a}
    (h : s'.numel = (Rect.unit (s := ⟨3, d⟩) ![k, p, q] ![1, A, B] inb).shape.numel)
    (f : v.ty.Contents Val) (w : s'.Idx → Val e) :
    v.readAt Val (Rect.unit (s := ⟨3, d⟩) ![n, p', q'] ![1, A, B] inb').toLoadRect
        (((v.slice (Rect.unit (s := ⟨3, d⟩) ![k, p, q] ![1, A, B] inb)).reshape s' h).write Val f w Finset.univ)
      = v.readAt Val (Rect.unit (s := ⟨3, d⟩) ![n, p', q'] ![1, A, B] inb').toLoadRect f :=
  readAt_write_other v _ _ h f w (unit3_emb_not_mem k n p q p' q' A B hkn inb inb')

end Cert.Slots

end
-- ==== Proof.PreRange.lean ====
/-
  The precondition's integer conjuncts decoded: every task word is in [0, 10) and every depth word in [0, 12).
-/
import proofs.«428897_j1073741824233_3_alg».proof.Pre_finite_inputs
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

/-- A word in [0, n) read signed is below n read unsigned: nonnegative signed means the top bit is clear, and then
    the signed and the unsigned readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.1 h0
  rw [BitVec.toInt_eq_toNat_of_lt hw] at h1
  exact_mod_cast h1

theorem ranges {F : FTy → Type} [FloatOps F] [Cert.Pre_finite_inputs.Facts]
    (a0 : FVec F S128x197x768 .f32) (a1 : FVec F S10x12x768x64 .f32) (a2 : FVec F S10x12x64 .f32)
    (a3 : FVec F S10x12x64x768 .f32) (a4 : FVec F S10x12x768 .f32) (a5 a6 : IVec S128 32)
    (h : Cert.Pre_finite_inputs.fn (F := F) a0 a1 a2 a3 a4 a5 a6 = fun _ => 1#1) (b : Fin 128) :
    (a5 (ix1 b)).toNat < 10 ∧ (a6 (ix1 b)).toNat < 12 := by
  -- the scalar shape has one index, so a conjunction over all axes reads back at every operand index
  haveI : Subsingleton S_.Idx := ⟨fun _ _ => funext fun d => d.elim0⟩
  have e := congrFun h ix0
  dsimp only [fn, fn_part1, fn_part2] at e
  -- the function is a chain of conjunctions: its last conjunct is the depth test, the one before it the task test
  obtain ⟨hl, hD⟩ := IntOp.andi_eq_one.1 (show IntOp.andi _ _ = 1#1 from e)
  obtain ⟨-, hT⟩ := IntOp.andi_eq_one.1 (show IntOp.andi _ _ = 1#1 from hl)
  -- each test is a conjunction over all 128 samples: read it at sample b
  have tb := Host.reduce_andi_all _ _ _ _ _ hT (ix1 b)
  have db := Host.reduce_andi_all _ _ _ _ _ hD (ix1 b)
  -- at sample b each is "0 ≤ word" and "word < bound", both signed, against a broadcast constant
  obtain ⟨t0, t1⟩ := IntOp.andi_eq_one.1 (show IntOp.andi _ _ = 1#1 from tb)
  obtain ⟨d0, d1⟩ := IntOp.andi_eq_one.1 (show IntOp.andi _ _ = 1#1 from db)
  exact ⟨toNat_lt_of_signed _ 10 (by decide) t0 t1, toNat_lt_of_signed _ 12 (by decide) d0 d1⟩

/-- The flat row word the kernel computes, `task * 12 + depth` in 32-bit arithmetic, is `12 · task + depth` as a number
    when both are in range. -/
theorem row_toNat (t d : BitVec 32) (ht : t.toNat < 10) (hd : d.toNat < 12) :
    (t * 12#32 + d).toNat = t.toNat * 12 + d.toNat := by
  -- neither the product (below 120) nor the sum (below 132) wraps at 2³²
  rw [BitVec.toNat_add, BitVec.toNat_mul, show (12#32 : BitVec 32).toNat = 12 from rfl]
  omega

end Cert.PreRange

end
-- ==== Proof.HypsB.lean ====
/-
  The side conditions the body assumes of the four row words it reads at a grid point — each names a row of the 120-row
  weight arrays — follow from the precondition: the word is `task * 12 + depth` with `0 ≤ task < 10` and `0 ≤ depth < 12`.
-/
import proofs.«428897_j1073741824233_3_alg».proof.Defs
import proofs.«428897_j1073741824233_3_alg».proof.Proof.Gen.Kernel.Frame.Runs
import proofs.«428897_j1073741824233_3_alg».proof.Proof.Gen.Pre_finite_inputs
import proofs.«428897_j1073741824233_3_alg».proof.Proof.PreRange
import Idealize.ShloMosaic.Lib.StableHlo.Run

set_option maxRecDepth 16384

noncomputable section

namespace Cert.Kernel.HypsOfPre

open Cert.Kernel Cert.Kernel.Gen Idealize.ShloMosaic Idealize.ShloMosaic.TcCoe Idealize.SL.Sem Idealize.ShloMosaic.ValueIdx

variable (m : (ℓ : Loc nD τ sig) → Buf (Elt Bits) ℓ)

/-- The task and depth words on core `c`, and the table of flat row words the launch prefetches (read on core 0). -/
abbrev taskW (c : Dev nD) : IVec S128 32 := m ((c : Thread nD τ).loc main_arg5)
abbrev depthW (c : Dev nD) : IVec S128 32 := m ((c : Thread nD τ).loc main_arg6)
abbrev rowW : IVec S128 32 := tbl m 0

/-- The table's buffer when the region is entered, as the host operations before it leave it: the task words times the
    broadcast constant 12, plus the depth words, elementwise. No earlier host operation writes the task or depth buffers. -/
theorem V_table : (V m (0 : Dev nD) main_v11 : IVec S128 32)
    = addi (muli (taskW m 0) (broadcastInDim S128 ![] bcast_S_S128 (constantI S_ 32 12#32))) (depthW m 0) := by
  dsimp only [V]
  simp only [hostOps0, hostOps0_1, hostOps0_2, hostOps0_3, hostOps0_4, hostOps0_5, hostOps0_6, List.flatten_cons, List.flatten_nil,
    List.append_nil, List.cons_append, List.nil_append]
  after_results

/-- The table's word for sample `b` is `task[b] * 12 + depth[b]` (the two host operations before the launch). -/
theorem tbl_apply (b : Fin 128) : rowW m (ix1 b) = taskW m 0 (ix1 b) * 12#32 + depthW m 0 (ix1 b) := by
  -- the table is device 0's buffer of the sum; a broadcast scalar constant reads 12 at every sample
  show (V m (0 : Dev nD) main_v11 : IVec S128 32) (ix1 b) = _
  rw [V_table]
  rfl

/-- Under the precondition the words are in range, -/
theorem word_ranges (h : @Cert.Pre_Kernel Cert.Pre_finite_inputs.Gen.facts m) (c : Dev nD) (b : Fin 128) :
    (taskW m c (ix1 b)).toNat < 10 ∧ (depthW m c (ix1 b)).toNat < 12 :=
  Cert.PreRange.ranges _ _ _ _ _ _ _ (h c) b

/-- so the table's word for sample `b` is the flat row `12 · task[b] + depth[b]`, below 120, -/
theorem tbl_toNat (h : @Cert.Pre_Kernel Cert.Pre_finite_inputs.Gen.facts m) (b : Fin 128) :
    (rowW m (ix1 b)).toNat = (taskW m 0 (ix1 b)).toNat * 12 + (depthW m 0 (ix1 b)).toNat := by
  obtain ⟨ht, hd⟩ := word_ranges m h 0 b
  rw [tbl_apply]
  exact Cert.PreRange.row_toNat _ _ ht hd

/-- Every word of the table names one of the 120 rows: `12 · task + depth ≤ 12 · 9 + 11`. -/
theorem tbl_lt (h : @Cert.Pre_Kernel Cert.Pre_finite_inputs.Gen.facts m) (j : S128.Idx) : (rowW m j).toNat < 120 := by
  obtain ⟨p, rfl⟩ : ∃ p : Fin 128, j = ix1 p := ⟨j 0, eq_ix1 j⟩
  obtain ⟨ht, hd⟩ := word_ranges m h 0 p
  rw [tbl_toNat m h p]
  omega

/-- A property of every word below 120 holds of the word read through a one-element rectangle of a whole table all of
    whose words are below 120: that word is the table at the rectangle's index. Stated for an arbitrary table. -/
theorem read_word_of_lt (P : BitVec 32 → Prop) (hP : ∀ w : BitVec 32, w.toNat < 120 → P w)
    (T : BufTy.Contents (Elt Bits) tbM0_0.view.ty) (hT : ∀ j : S128.Idx, ((T : IVec S128 32) j).toNat < 120)
    (off : Fin 1 → Nat) (inb : ∀ a, off a + S1.size a ≤ S128.size a) (h1 : 0 < S1.numel) :
    P (tbM0_0.view.readAt (Elt Bits) (Rect.unit (s := S128) off S1.size inb).toLoadRect T (Shape.Idx.first h1)) :=
  hP _ (hT _)

/-- A word below 120 put on the leading axis of a one-row block keeps the block inside a 120-row array: on that axis
    `w + 1 ≤ 120`, on the two others the block is the whole extent at offset 0. -/
theorem row_inb (w : BitVec 32) (hw : w.toNat < 120) (n1 n2 : Nat) :
    ∀ a, (![w.toNat, 0, 0] : Fin 3 → Nat) a + (⟨3, ![1, n1, n2]⟩ : Shape).size a ≤ (⟨3, ![120, n1, n2]⟩ : Shape).size a := by
  intro a
  fin_cases a
  · show w.toNat + 1 ≤ 120; omega
  · show 0 + n1 ≤ n1; omega
  · show 0 + n2 ≤ n2; omega

/-- Each side condition is a conjunction of such bounds, one per weight array the word indexes. -/
theorem chk1 (w : BitVec 32) (hw : w.toNat < 120) : k0_chk1 w :=
  ⟨row_inb w hw _ _, row_inb w hw _ _, row_inb w hw _ _, row_inb w hw _ _, row_inb w hw _ _, row_inb w hw _ _, row_inb w hw _ _, row_inb w hw _ _⟩
theorem chk2 (w : BitVec 32) (hw : w.toNat < 120) : k0_chk2 w :=
  ⟨row_inb w hw _ _, row_inb w hw _ _, row_inb w hw _ _, row_inb w hw _ _, row_inb w hw _ _, row_inb w hw _ _, row_inb w hw _ _, row_inb w hw _ _⟩
theorem chk3 (w : BitVec 32) (hw : w.toNat < 120) : k0_chk3 w :=
  ⟨row_inb w hw _ _, row_inb w hw _ _, row_inb w hw _ _, row_inb w hw _ _, row_inb w hw _ _, row_inb w hw _ _, row_inb w hw _ _, row_inb w hw _ _⟩
theorem chk4 (w : BitVec 32) (hw : w.toNat < 120) : k0_chk4 w :=
  ⟨row_inb w hw _ _, row_inb w hw _ _, row_inb w hw _ _, row_inb w hw _ _⟩

/-- and the body's four side conditions hold at every grid point. -/
theorem hyps_of_pre (h : @Cert.Pre_Kernel Cert.Pre_finite_inputs.Gen.facts m) (hO : Ok m) : Hyps m hO :=
  Hyps.of
    (fun _ _ => read_word_of_lt k0_chk1 chk1 (tbl m 0) (tbl_lt m h) _ _ _)
    (fun _ _ => read_word_of_lt k0_chk2 chk2 (tbl m 0) (tbl_lt m h) _ _ _)
    (fun _ _ => read_word_of_lt k0_chk3 chk3 (tbl m 0) (tbl_lt m h) _ _ _)
    (fun _ _ => read_word_of_lt k0_chk4 chk4 (tbl m 0) (tbl_lt m h) _ _ _)

end Cert.Kernel.HypsOfPre

end
-- ==== Proof.HypsK.lean ====
/-
  The side conditions the body assumes of the four row words it reads at a grid point — each names a row of the 120-row
  weight arrays — follow from the precondition: the word is `task * 12 + depth` with `0 ≤ task < 10` and `0 ≤ depth < 12`.
-/
import proofs.«428897_j1073741824233_3_alg».proof.Defs
import proofs.«428897_j1073741824233_3_alg».proof.Proof.Gen.KernelIdeal.Frame.Runs
import proofs.«428897_j1073741824233_3_alg».proof.Proof.Gen.Pre_finite_inputs
import proofs.«428897_j1073741824233_3_alg».proof.Proof.PreRange
import Idealize.ShloMosaic.Lib.StableHlo.Run

set_option maxRecDepth 16384

noncomputable section

namespace Cert.KernelIdeal.HypsOfPre

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The task and depth words on core `c`, and the table of flat row words the launch prefetches (read on core 0). -/
abbrev taskW (c : Dev nD) : IVec S128 32 := m ((c : Thread nD τ).loc main_arg5)
abbrev depthW (c : Dev nD) : IVec S128 32 := m ((c : Thread nD τ).loc main_arg6)
abbrev rowW : IVec S128 32 := tbl m 0

/-- The table's buffer when the region is entered, as the host operations before it leave it: the task words times the
    broadcast constant 12, plus the depth words, elementwise. No earlier host operation writes the task or depth buffers. -/
theorem V_table : (V m (0 : Dev nD) main_v11 : IVec S128 32)
    = addi (muli (taskW m 0) (broadcastInDim S128 ![] bcast_S_S128 (constantI S_ 32 12#32))) (depthW m 0) := by
  dsimp only [V]
  simp only [hostOps0, hostOps0_1, hostOps0_2, hostOps0_3, hostOps0_4, hostOps0_5, hostOps0_6, List.flatten_cons, List.flatten_nil,
    List.append_nil, List.cons_append, List.nil_append]
  after_results

/-- The table's word for sample `b` is `task[b] * 12 + depth[b]` (the two host operations before the launch). -/
theorem tbl_apply (b : Fin 128) : rowW m (ix1 b) = taskW m 0 (ix1 b) * 12#32 + depthW m 0 (ix1 b) := by
  -- the table is device 0's buffer of the sum; a broadcast scalar constant reads 12 at every sample
  show (V m (0 : Dev nD) main_v11 : IVec S128 32) (ix1 b) = _
  rw [V_table]
  rfl

/-- Under the precondition the words are in range, -/
theorem word_ranges (h : @Cert.Pre_KernelIdeal Cert.Pre_finite_inputs.Gen.facts m) (c : Dev nD) (b : Fin 128) :
    (taskW m c (ix1 b)).toNat < 10 ∧ (depthW m c (ix1 b)).toNat < 12 :=
  Cert.PreRange.ranges _ _ _ _ _ _ _ (h c) b

/-- so the table's word for sample `b` is the flat row `12 · task[b] + depth[b]`, below 120, -/
theorem tbl_toNat (h : @Cert.Pre_KernelIdeal Cert.Pre_finite_inputs.Gen.facts m) (b : Fin 128) :
    (rowW m (ix1 b)).toNat = (taskW m 0 (ix1 b)).toNat * 12 + (depthW m 0 (ix1 b)).toNat := by
  obtain ⟨ht, hd⟩ := word_ranges m h 0 b
  rw [tbl_apply]
  exact Cert.PreRange.row_toNat _ _ ht hd

/-- Every word of the table names one of the 120 rows: `12 · task + depth ≤ 12 · 9 + 11`. -/
theorem tbl_lt (h : @Cert.Pre_KernelIdeal Cert.Pre_finite_inputs.Gen.facts m) (j : S128.Idx) : (rowW m j).toNat < 120 := by
  obtain ⟨p, rfl⟩ : ∃ p : Fin 128, j = ix1 p := ⟨j 0, eq_ix1 j⟩
  obtain ⟨ht, hd⟩ := word_ranges m h 0 p
  rw [tbl_toNat m h p]
  omega

/-- A property of every word below 120 holds of the word read through a one-element rectangle of a whole table all of
    whose words are below 120: that word is the table at the rectangle's index. Stated for an arbitrary table. -/
theorem read_word_of_lt (P : BitVec 32 → Prop) (hP : ∀ w : BitVec 32, w.toNat < 120 → P w)
    (T : BufTy.Contents (Elt Ideal) tbM0_0.view.ty) (hT : ∀ j : S128.Idx, ((T : IVec S128 32) j).toNat < 120)
    (off : Fin 1 → Nat) (inb : ∀ a, off a + S1.size a ≤ S128.size a) (h1 : 0 < S1.numel) :
    P (tbM0_0.view.readAt (Elt Ideal) (Rect.unit (s := S128) off S1.size inb).toLoadRect T (Shape.Idx.first h1)) :=
  hP _ (hT _)

/-- A word below 120 put on the leading axis of a one-row block keeps the block inside a 120-row array: on that axis
    `w + 1 ≤ 120`, on the two others the block is the whole extent at offset 0. -/
theorem row_inb (w : BitVec 32) (hw : w.toNat < 120) (n1 n2 : Nat) :
    ∀ a, (![w.toNat, 0, 0] : Fin 3 → Nat) a + (⟨3, ![1, n1, n2]⟩ : Shape).size a ≤ (⟨3, ![120, n1, n2]⟩ : Shape).size a := by
  intro a
  fin_cases a
  · show w.toNat + 1 ≤ 120; omega
  · show 0 + n1 ≤ n1; omega
  · show 0 + n2 ≤ n2; omega

/-- Each side condition is a conjunction of such bounds, one per weight array the word indexes. -/
theorem chk1 (w : BitVec 32) (hw : w.toNat < 120) : k0_chk1 w :=
  ⟨row_inb w hw _ _, row_inb w hw _ _, row_inb w hw _ _, row_inb w hw _ _, row_inb w hw _ _, row_inb w hw _ _, row_inb w hw _ _, row_inb w hw _ _⟩
theorem chk2 (w : BitVec 32) (hw : w.toNat < 120) : k0_chk2 w :=
  ⟨row_inb w hw _ _, row_inb w hw _ _, row_inb w hw _ _, row_inb w hw _ _, row_inb w hw _ _, row_inb w hw _ _, row_inb w hw _ _, row_inb w hw _ _⟩
theorem chk3 (w : BitVec 32) (hw : w.toNat < 120) : k0_chk3 w :=
  ⟨row_inb w hw _ _, row_inb w hw _ _, row_inb w hw _ _, row_inb w hw _ _, row_inb w hw _ _, row_inb w hw _ _, row_inb w hw _ _, row_inb w hw _ _⟩
theorem chk4 (w : BitVec 32) (hw : w.toNat < 120) : k0_chk4 w :=
  ⟨row_inb w hw _ _, row_inb w hw _ _, row_inb w hw _ _, row_inb w hw _ _⟩

/-- and the body's four side conditions hold at every grid point. -/
theorem hyps_of_pre (h : @Cert.Pre_KernelIdeal Cert.Pre_finite_inputs.Gen.facts m) (hO : Ok m) : Hyps m hO :=
  Hyps.of
    (fun _ _ => read_word_of_lt k0_chk1 chk1 (tbl m 0) (tbl_lt m h) _ _ _)
    (fun _ _ => read_word_of_lt k0_chk2 chk2 (tbl m 0) (tbl_lt m h) _ _ _)
    (fun _ _ => read_word_of_lt k0_chk3 chk3 (tbl m 0) (tbl_lt m h) _ _ _)
    (fun _ _ => read_word_of_lt k0_chk4 chk4 (tbl m 0) (tbl_lt m h) _ _ _)

end Cert.KernelIdeal.HypsOfPre

end
-- ==== Proof.Spec.lean ====
/-
  The adapter layer as ONE function of the argument arrays, index by index, over the extended reals.

  For sample `b` the layer picks the weight quadruple at the pair (P b, L b) and computes, at row `s` and column `d`,
      ( Σ_r  max( Σ_k x[b,s,k] · dp[P b, L b, k, r] + db[P b, L b, r], 0 ) · up[P b, L b, r, d]  +  ub[P b, L b, d] ) · 1  +  x[b,s,d] .
  `sampleR` is that expression for one sample with the inner width `R` a parameter: the reference contracts over
  the 64 columns the weights have, the kernel over 128 columns of which the last 64 are zero padding. `sampleR_pad`
  is the one law between the two: a column whose down-projection, bias and up-projection row are all zero
  contributes `max(Σ_k x·0 + 0, 0) · 0 = 0`, whatever the extended reals `x` holds (a product with the real 0 is 0
  on all of EReal), so the sum over 128 columns is the sum over the first 64.
-/
import Idealize.ShloMosaic.PureOps.Ideal
import Idealize.ShloMosaic.Lib.ValueIdx
import Mathlib.Algebra.BigOperators.Fin

noncomputable section

open scoped BigOperators

namespace Cert.Adapter

open Idealize.ShloMosaic Idealize.ShloMosaic.ValueIdx

/-- The two float words both programs carry, read at the ideal instance: 0.0 (the relu's floor) and 1.0 (the scale). -/
abbrev zeroW : EReal := Ideal.ofBits .f32 0x00000000#32
abbrev oneW : EReal := Ideal.ofBits .f32 0x3F800000#32

/-- One sample's result at row `s`, column `d`, for an inner width `R`. -/
def sampleR {R : Nat} (x : Fin 197 → Fin 768 → EReal) (dp : Fin 768 → Fin R → EReal) (db : Fin R → EReal)
    (up : Fin R → Fin 768 → EReal) (ub : Fin 768 → EReal) (s : Fin 197) (d : Fin 768) : EReal :=
  ((∑ r : Fin R, max ((∑ k : Fin 768, x s k * dp k r) + db r) zeroW * up r d) + ub d) * oneW + x s d

/-- Zero padding of a length-64 family to length 128. -/
def pad64 (z : EReal) (f : Fin 64 → EReal) (r : Fin 128) : EReal := if h : r.val < 64 then f ⟨r.val, h⟩ else z

theorem pad64_lo (z : EReal) (f : Fin 64 → EReal) (r : Fin 64) : pad64 z f (Fin.castAdd 64 r) = f r := by
  unfold pad64; rw [dif_pos (by simp)]; rfl

theorem pad64_hi (z : EReal) (f : Fin 64 → EReal) (r : Fin 64) : pad64 z f (Fin.natAdd 64 r) = z := by
  unfold pad64; rw [dif_neg (by simp)]

/-- A sum over 128 terms whose last 64 vanish is the sum of the first 64. -/
theorem sum_pad (g : Fin (64 + 64) → EReal) (h : Fin 64 → EReal) (hlo : ∀ r, g (Fin.castAdd 64 r) = h r)
    (hhi : ∀ r, g (Fin.natAdd 64 r) = 0) : ∑ r : Fin (64 + 64), g r = ∑ r : Fin 64, h r := by
  have e := Fin.sum_univ_add g
  rw [e, Finset.sum_congr rfl (fun r _ => hhi r), Finset.sum_const_zero, add_zero]
  exact Finset.sum_congr rfl fun r _ => hlo r

/-- THE LAW: contracting over 128 columns of which the last 64 hold zeros (in the down-projection, its bias and the
    up-projection's rows) is contracting over the first 64. -/
theorem sampleR_pad (x : Fin 197 → Fin 768 → EReal) (dp : Fin 768 → Fin 64 → EReal) (db : Fin 64 → EReal)
    (up : Fin 64 → Fin 768 → EReal) (ub : Fin 768 → EReal) (s : Fin 197) (d : Fin 768) :
    sampleR (R := 128) x (fun k => pad64 0 (dp k)) (pad64 0 db) (fun r d => pad64 0 (fun r => up r d) r) ub s d
      = sampleR (R := 64) x dp db up ub s d := by
  unfold sampleR
  refine congrArg (fun t => (t + ub d) * oneW + x s d) (sum_pad _ _ (fun r => ?_) (fun r => ?_))
  · simp only [pad64_lo]
  · simp only [pad64_hi, mul_zero]

/-- THE VALUE both programs are shown to compute: at (b, s, d), sample `b`'s expression with the weights of pair (P b, L b). -/
def G (x : (⟨3, ![128, 197, 768]⟩ : Shape).Idx → EReal) (dp : (⟨4, ![10, 12, 768, 64]⟩ : Shape).Idx → EReal)
    (db : (⟨3, ![10, 12, 64]⟩ : Shape).Idx → EReal) (up : (⟨4, ![10, 12, 64, 768]⟩ : Shape).Idx → EReal)
    (ub : (⟨3, ![10, 12, 768]⟩ : Shape).Idx → EReal) (P : Fin 128 → Fin 10) (L : Fin 128 → Fin 12)
    (b : Fin 128) (s : Fin 197) (d : Fin 768) : EReal :=
  sampleR (R := 64) (fun s k => x (ix3 b s k)) (fun k r => dp (ix4 (P b) (L b) k r)) (fun r => db (ix3 (P b) (L b) r))
    (fun r d => up (ix4 (P b) (L b) r d)) (fun d => ub (ix3 (P b) (L b) d)) s d

/-- The same, as a function of an index of the result array. -/
def Garr (x : (⟨3, ![128, 197, 768]⟩ : Shape).Idx → EReal) (dp : (⟨4, ![10, 12, 768, 64]⟩ : Shape).Idx → EReal)
    (db : (⟨3, ![10, 12, 64]⟩ : Shape).Idx → EReal) (up : (⟨4, ![10, 12, 64, 768]⟩ : Shape).Idx → EReal)
    (ub : (⟨3, ![10, 12, 768]⟩ : Shape).Idx → EReal) (P : Fin 128 → Fin 10) (L : Fin 128 → Fin 12) :
    (⟨3, ![128, 197, 768]⟩ : Shape).Idx → EReal :=
  fun i => G x dp db up ub P L (i 0) (i 1) (i 2)

theorem Garr_ix3 (x : (⟨3, ![128, 197, 768]⟩ : Shape).Idx → EReal) (dp : (⟨4, ![10, 12, 768, 64]⟩ : Shape).Idx → EReal)
    (db : (⟨3, ![10, 12, 64]⟩ : Shape).Idx → EReal) (up : (⟨4, ![10, 12, 64, 768]⟩ : Shape).Idx → EReal)
    (ub : (⟨3, ![10, 12, 768]⟩ : Shape).Idx → EReal) (P : Fin 128 → Fin 10) (L : Fin 128 → Fin 12)
    (b : Fin 128) (s : Fin 197) (d : Fin 768) : Garr x dp db up ub P L (ix3 b s d) = G x dp db up ub P L b s d := rfl

end Cert.Adapter

end
-- ==== Proof.HostPrefix.lean ====
/-
  What the host operations before the launch leave in the arrays the kernel reads: the four weight arrays flattened over the
  (task, depth) pair axis, the last axis of three of them zero-padded from 64 to 128, and the table of flat row words.
-/
import proofs.«428897_j1073741824233_3_alg».proof.Proof.Gen.KernelIdeal.Frame.Runs
import proofs.«428897_j1073741824233_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Row `j` of the flattened pair axis is the pair (j / 12, j % 12). -/
def pr (j : Fin 120) : Fin 10 := ⟨j.val / 12, by omega⟩
def lr (j : Fin 120) : Fin 12 := ⟨j.val % 12, Nat.mod_lt _ (by decide)⟩

/-- The pair of a flat row names the row: 12 · (j / 12) + j % 12 = j. -/
theorem pr_lr (j : Fin 120) : (pr j).val * 12 + (lr j).val = j.val := by
  show j.val / 12 * 12 + j.val % 12 = j.val
  omega

/-! ## The layout operations read at an index -/

section Layout
variable {α : Type}

/-- Merging the two leading axes `[10, 12]` of a rank-4 array into one of 120 rows: row `j` is the pair (j / 12, j % 12),
    because both indices have the row-major position ((j · c) + k) · d + r. -/
theorem reshape_pairs4 {c d : Nat} (x : (⟨4, ![10, 12, c, d]⟩ : Shape).Idx → α)
    (h : (⟨4, ![10, 12, c, d]⟩ : Shape).ShapeCasts ⟨3, ![120, c, d]⟩) (j : Fin 120) (k : Fin c) (r : Fin d) :
    shapeCast ⟨3, ![120, c, d]⟩ x h (ix3 j k r) = x (ix4 (pr j) (lr j) k r) :=
  shapeCast_apply x h _ _ (by
    rw [Shape.rowMajor_val_four, Shape.rowMajor_val_three]
    show (((pr j).val * 12 + (lr j).val) * c + k.val) * d + r.val = (j.val * c + k.val) * d + r.val
    rw [pr_lr])

/-- The same for a rank-3 array: `[10, 12, d]` read as `[120, d]`. -/
theorem reshape_pairs3 {d : Nat} (x : (⟨3, ![10, 12, d]⟩ : Shape).Idx → α)
    (h : (⟨3, ![10, 12, d]⟩ : Shape).ShapeCasts ⟨2, ![120, d]⟩) (j : Fin 120) (r : Fin d) :
    shapeCast ⟨2, ![120, d]⟩ x h (ix2 j r) = x (ix3 (pr j) (lr j) r) :=
  shapeCast_apply x h _ _ (by
    rw [Shape.rowMajor_val_three, Shape.rowMajor_val_two]
    show ((pr j).val * 12 + (lr j).val) * d + r.val = j.val * d + r.val
    rw [pr_lr])

/-- A unit axis put between the two axes of a matrix: the new axis' coordinate is not read. -/
theorem bcast_mid {n d : Nat} (x : (⟨2, ![n, d]⟩ : Shape).Idx → α)
    (h : (⟨2, ![n, d]⟩ : Shape).BroadcastsInDim ⟨3, ![n, 1, d]⟩ (![0, 2] : Fin 2 → Fin (⟨3, ![n, 1, d]⟩ : Shape).rank))
    (j : Fin n) (u : Fin 1) (r : Fin d) :
    broadcastInDim ⟨3, ![n, 1, d]⟩ ![0, 2] h x (ix3 j u r) = x (ix2 j r) :=
  broadcastInDim_apply _ h x _ _ (fun a => by
    match a with
    | ⟨0, _⟩ =>
      show j.val = if n = 1 then 0 else j.val
      have := j.isLt
      split <;> omega
    | ⟨1, _⟩ =>
      show r.val = if d = 1 then 0 else r.val
      have := r.isLt
      split <;> omega)

/-- A rank-3 array padded at the high end of its LAST axis, read below the operand's extent: the operand. -/
theorem pad_last_lo {n0 n1 n2 N p : Nat} (x : (⟨3, ![n0, n1, n2]⟩ : Shape).Idx → α) {u : Shape} (v : u.Idx → α)
    (h : (⟨3, ![n0, n1, n2]⟩ : Shape).Pads (![0, 0, 0] : Fin 3 → Nat) ![0, 0, p] ![0, 0, 0] ⟨3, ![n0, n1, N]⟩) (hu : 0 < u.numel)
    (j : Fin n0) (k : Fin n1) (r : Fin N) (hr : r.val < n2) :
    pad ⟨3, ![n0, n1, N]⟩ ![0, 0, 0] ![0, 0, p] ![0, 0, 0] x v h hu (ix3 j k r) = x (ix3 j k ⟨r.val, hr⟩) :=
  pad_apply_of_inside _ _ _ x v h hu _ (ix3 j k ⟨r.val, hr⟩) (fun a => by
    match a with
    | ⟨0, _⟩ => show j.val = 0 + j.val * (0 + 1); omega
    | ⟨1, _⟩ => show k.val = 0 + k.val * (0 + 1); omega
    | ⟨2, _⟩ => show r.val = 0 + r.val * (0 + 1); omega)

/-- … and read at or past the operand's extent: the padding value. -/
theorem pad_last_hi {n0 n1 n2 N p : Nat} (x : (⟨3, ![n0, n1, n2]⟩ : Shape).Idx → α) {u : Shape} (v : u.Idx → α)
    (h : (⟨3, ![n0, n1, n2]⟩ : Shape).Pads (![0, 0, 0] : Fin 3 → Nat) ![0, 0, p] ![0, 0, 0] ⟨3, ![n0, n1, N]⟩) (hu : 0 < u.numel)
    (j : Fin n0) (k : Fin n1) (r : Fin N) (hr : ¬ r.val < n2) :
    pad ⟨3, ![n0, n1, N]⟩ ![0, 0, 0] ![0, 0, p] ![0, 0, 0] x v h hu (ix3 j k r) = v (Shape.Idx.first hu) :=
  pad_apply_of_not_inside _ _ _ x v h hu _ (2 : Fin 3) (fun hc => hr (by
    have h2 : (r.val - 0) / (0 + 1) < n2 := hc.2.2
    omega))

/-- A rank-3 array padded at the high end of its MIDDLE axis, read below the operand's extent: the operand. -/
theorem pad_mid_lo {n0 n1 n2 N p : Nat} (x : (⟨3, ![n0, n1, n2]⟩ : Shape).Idx → α) {u : Shape} (v : u.Idx → α)
    (h : (⟨3, ![n0, n1, n2]⟩ : Shape).Pads (![0, 0, 0] : Fin 3 → Nat) ![0, p, 0] ![0, 0, 0] ⟨3, ![n0, N, n2]⟩) (hu : 0 < u.numel)
    (j : Fin n0) (r : Fin N) (k : Fin n2) (hr : r.val < n1) :
    pad ⟨3, ![n0, N, n2]⟩ ![0, 0, 0] ![0, p, 0] ![0, 0, 0] x v h hu (ix3 j r k) = x (ix3 j ⟨r.val, hr⟩ k) :=
  pad_apply_of_inside _ _ _ x v h hu _ (ix3 j ⟨r.val, hr⟩ k) (fun a => by
    match a with
    | ⟨0, _⟩ => show j.val = 0 + j.val * (0 + 1); omega
    | ⟨1, _⟩ => show r.val = 0 + r.val * (0 + 1); omega
    | ⟨2, _⟩ => show k.val = 0 + k.val * (0 + 1); omega)

/-- … and read at or past the operand's extent: the padding value. -/
theorem pad_mid_hi {n0 n1 n2 N p : Nat} (x : (⟨3, ![n0, n1, n2]⟩ : Shape).Idx → α) {u : Shape} (v : u.Idx → α)
    (h : (⟨3, ![n0, n1, n2]⟩ : Shape).Pads (![0, 0, 0] : Fin 3 → Nat) ![0, p, 0] ![0, 0, 0] ⟨3, ![n0, N, n2]⟩) (hu : 0 < u.numel)
    (j : Fin n0) (r : Fin N) (k : Fin n2) (hr : ¬ r.val < n1) :
    pad ⟨3, ![n0, N, n2]⟩ ![0, 0, 0] ![0, p, 0] ![0, 0, 0] x v h hu (ix3 j r k) = v (Shape.Idx.first hu) :=
  pad_apply_of_not_inside _ _ _ x v h hu _ (1 : Fin 3) (fun hc => hr (by
    have h2 : (r.val - 0) / (0 + 1) < n1 := hc.2.2
    omega))

end Layout

/-- The padding value: the integer word 0 converted to a float is the real 0. -/
theorem padval_zero (i : S_.Idx) : sitofp (F := Ideal) .f32 (constantI S_ 32 0#32) i = (0 : EReal) := by
  show (((0#32 : BitVec 32).toInt : ℝ) : EReal) = 0
  simp

/-! ## The four arrays as terms of the launch memory -/

/-- `main_v1`: the first weight array, its pair axes merged, its last axis padded with the converted word 0. -/
theorem V_v1_eq (c : Dev nD) :
    (V m c main_v1 : S120x768x128.Idx → EReal)
      = pad S120x768x128 ![0, 0, 0] ![0, 0, 64] ![0, 0, 0]
          (shapeCast S120x768x64 (m ((c : Thread nD τ).loc main_arg1) : S10x12x768x64.Idx → EReal) shapeCasts_S10x12x768x64_S120x768x64)
          (sitofp (F := Ideal) .f32 (constantI S_ 32 0#32)) pads_S120x768x64_S120x768x128_000_000_0640 h_S_ := by
  dsimp only [V]
  simp only [hostOps0, hostOps0_1, hostOps0_2, hostOps0_3, hostOps0_4, hostOps0_5, hostOps0_6, List.flatten_cons, List.flatten_nil, List.append_nil,
    List.cons_append, List.nil_append]
  after_results
  rfl

/-- `main_v3`: the third weight array, its pair axes merged, its middle axis padded with the converted word 0. -/
theorem V_v3_eq (c : Dev nD) :
    (V m c main_v3 : S120x128x768.Idx → EReal)
      = pad S120x128x768 ![0, 0, 0] ![0, 64, 0] ![0, 0, 0]
          (shapeCast S120x64x768 (m ((c : Thread nD τ).loc main_arg3) : S10x12x64x768.Idx → EReal) shapeCasts_S10x12x64x768_S120x64x768)
          (sitofp (F := Ideal) .f32 (constantI S_ 32 0#32)) pads_S120x64x768_S120x128x768_000_0640_000 h_S_ := by
  dsimp only [V]
  simp only [hostOps0, hostOps0_1, hostOps0_2, hostOps0_3, hostOps0_4, hostOps0_5, hostOps0_6, List.flatten_cons, List.flatten_nil, List.append_nil,
    List.cons_append, List.nil_append]
  after_results
  rfl

/-- `main_v6`: the second weight array, its pair axes merged, a unit axis put in the middle, its last axis padded. -/
theorem V_v6_eq (c : Dev nD) :
    (V m c main_v6 : S120x1x128.Idx → EReal)
      = pad S120x1x128 ![0, 0, 0] ![0, 0, 64] ![0, 0, 0]
          (broadcastInDim S120x1x64 ![0, 2] bcast_S120x64_S120x1x64_0_2
            (shapeCast S120x64 (m ((c : Thread nD τ).loc main_arg2) : S10x12x64.Idx → EReal) shapeCasts_S10x12x64_S120x64))
          (sitofp (F := Ideal) .f32 (constantI S_ 32 0#32)) pads_S120x1x64_S120x1x128_000_000_0640 h_S_ := by
  dsimp only [V]
  simp only [hostOps0, hostOps0_1, hostOps0_2, hostOps0_3, hostOps0_4, hostOps0_5, hostOps0_6, List.flatten_cons, List.flatten_nil, List.append_nil,
    List.cons_append, List.nil_append]
  after_results
  rfl

/-- `main_v8`: the fourth weight array, its pair axes merged, a unit axis put in the middle. -/
theorem V_v8_eq (c : Dev nD) :
    (V m c main_v8 : S120x1x768.Idx → EReal)
      = broadcastInDim S120x1x768 ![0, 2] bcast_S120x768_S120x1x768_0_2
          (shapeCast S120x768 (m ((c : Thread nD τ).loc main_arg4) : S10x12x768.Idx → EReal) shapeCasts_S10x12x768_S120x768) := by
  dsimp only [V]
  simp only [hostOps0, hostOps0_1, hostOps0_2, hostOps0_3, hostOps0_4, hostOps0_5, hostOps0_6, List.flatten_cons, List.flatten_nil, List.append_nil,
    List.cons_append, List.nil_append]
  after_results
  rfl

/-! ## Read at an index -/

theorem V_v1_apply (c : Dev nD) (j : Fin 120) (k : Fin 768) (r : Fin 128) :
    (V m c main_v1 : S120x768x128.Idx → EReal) (ix3 j k r)
      = Cert.Adapter.pad64 0 (fun r' => (m ((c : Thread nD τ).loc main_arg1) : S10x12x768x64.Idx → EReal) (ix4 (pr j) (lr j) k r')) r := by
  refine (congrFun (V_v1_eq m c) (ix3 j k r)).trans ?_
  unfold Cert.Adapter.pad64
  by_cases hr : r.val < 64
  · rw [dif_pos hr]
    refine (pad_last_lo _ _ pads_S120x768x64_S120x768x128_000_000_0640 h_S_ j k r hr).trans ?_
    exact reshape_pairs4 _ shapeCasts_S10x12x768x64_S120x768x64 j k ⟨r.val, hr⟩
  · rw [dif_neg hr]
    refine (pad_last_hi _ _ pads_S120x768x64_S120x768x128_000_000_0640 h_S_ j k r hr).trans ?_
    exact padval_zero _

theorem V_v6_apply (c : Dev nD) (j : Fin 120) (r : Fin 128) :
    (V m c main_v6 : S120x1x128.Idx → EReal) (ix3 j 0 r)
      = Cert.Adapter.pad64 0 (fun r' => (m ((c : Thread nD τ).loc main_arg2) : S10x12x64.Idx → EReal) (ix3 (pr j) (lr j) r')) r := by
  refine (congrFun (V_v6_eq m c) (ix3 j 0 r)).trans ?_
  unfold Cert.Adapter.pad64
  by_cases hr : r.val < 64
  · rw [dif_pos hr]
    refine (pad_last_lo _ _ pads_S120x1x64_S120x1x128_000_000_0640 h_S_ j 0 r hr).trans ?_
    refine (bcast_mid _ bcast_S120x64_S120x1x64_0_2 j 0 ⟨r.val, hr⟩).trans ?_
    exact reshape_pairs3 _ shapeCasts_S10x12x64_S120x64 j ⟨r.val, hr⟩
  · rw [dif_neg hr]
    refine (pad_last_hi _ _ pads_S120x1x64_S120x1x128_000_000_0640 h_S_ j 0 r hr).trans ?_
    exact padval_zero _

theorem V_v3_apply (c : Dev nD) (j : Fin 120) (r : Fin 128) (d : Fin 768) :
    (V m c main_v3 : S120x128x768.Idx → EReal) (ix3 j r d)
      = Cert.Adapter.pad64 0 (fun r' => (m ((c : Thread nD τ).loc main_arg3) : S10x12x64x768.Idx → EReal) (ix4 (pr j) (lr j) r' d)) r := by
  refine (congrFun (V_v3_eq m c) (ix3 j r d)).trans ?_
  unfold Cert.Adapter.pad64
  by_cases hr : r.val < 64
  · rw [dif_pos hr]
    refine (pad_mid_lo _ _ pads_S120x64x768_S120x128x768_000_0640_000 h_S_ j r d hr).trans ?_
    exact reshape_pairs4 _ shapeCasts_S10x12x64x768_S120x64x768 j ⟨r.val, hr⟩ d
  · rw [dif_neg hr]
    refine (pad_mid_hi _ _ pads_S120x64x768_S120x128x768_000_0640_000 h_S_ j r d hr).trans ?_
    exact padval_zero _

theorem V_v8_apply (c : Dev nD) (j : Fin 120) (d : Fin 768) :
    (V m c main_v8 : S120x1x768.Idx → EReal) (ix3 j 0 d)
      = (m ((c : Thread nD τ).loc main_arg4) : S10x12x768.Idx → EReal) (ix3 (pr j) (lr j) d) := by
  refine (congrFun (V_v8_eq m c) (ix3 j 0 d)).trans ?_
  refine (bcast_mid _ bcast_S120x768_S120x1x768_0_2 j 0 d).trans ?_
  exact reshape_pairs3 _ shapeCasts_S10x12x768_S120x768 j d

end Cert.KernelIdeal.HostPrefix

end
-- ==== Proof.KLoads.lean ====
/-
  What the body's loads and copies read, as entries of the argument arrays.

  At grid point t the x window's block is samples 4t … 4t+3 of x, so slot n of it is sample 4t+n. The row word the body
  reads at table offset 4t+n is the table's entry for sample 4t+n, under the precondition the flat row 12·task + depth
  of that sample. A copy of row w of a prepared weight array, re-laid and read back at (0, k, r), is the array at
  (w, k, r); by the host prefix that is the argument array at pair (w / 12, w % 12) = (task, depth), through the zero
  padding where the array is padded.
-/
import proofs.«428897_j1073741824233_3_alg».proof.Proof.Gen.KernelIdeal.Frame.Runs
import proofs.«428897_j1073741824233_3_alg».proof.Proof.HypsK
import proofs.«428897_j1073741824233_3_alg».proof.Proof.HostPrefix
import proofs.«428897_j1073741824233_3_alg».proof.Proof.Spec
import Idealize.ShloMosaic.Lib.Pipeline.Value

set_option maxRecDepth 16384

noncomputable section

namespace Cert.KernelIdeal.KLoads

open Cert.KernelIdeal Cert.KernelIdeal.Gen Cert.KernelIdeal.HypsOfPre Cert.KernelIdeal.HostPrefix
open Idealize.ShloMosaic Idealize.ShloMosaic.TcCoe Idealize.SL.Sem Idealize.ShloMosaic.ValueIdx

/-! ## Indices -/

/-- An index of a block with one leading row has leading coordinate 0. -/
theorem lead0 {a b : ℕ} (x : (⟨3, ![1, a, b]⟩ : Shape).Idx) : x = ix3 0 (x 1) (x 2) := by
  funext d
  match d with
  | ⟨0, _⟩ => exact Fin.ext (by have h : (x 0).val < 1 := (x 0).isLt; show (x 0).val = 0; omega)
  | ⟨1, _⟩ => rfl
  | ⟨2, _⟩ => rfl

/-- Row block `n` of a three-axis array: its index (0, p, q) is the array's (n, p, q). -/
theorem emb_row {A a b n : ℕ} (hn : n < A)
    (inb : ∀ d, (![n, 0, 0] : Fin 3 → ℕ) d + (![1, a, b] : Fin 3 → ℕ) d ≤ (⟨3, ![A, a, b]⟩ : Shape).size d) (p : Fin a) (q : Fin b) :
    (Rect.unit (s := ⟨3, ![A, a, b]⟩) ![n, 0, 0] ![1, a, b] inb).emb (ix3 0 p q) = ix3 ⟨n, hn⟩ p q := by
  funext d
  apply Fin.ext
  match d with
  | ⟨0, _⟩ => show n + 1 * 0 = n; omega
  | ⟨1, _⟩ => show 0 + 1 * p.val = p.val; omega
  | ⟨2, _⟩ => show 0 + 1 * q.val = q.val; omega

/-! ## A copied row read back -/

/-- A copy of rectangle `r` of a whole buffer, re-laid to `s'`, read at the index `x` of `r` re-laid the same way, is the
    buffer at `r`'s place for `x`. -/
theorem copy_read {sig : RefSig} {κ : Kind} {Val : EltTy → Type} {s' : Shape} (b : Ref sig κ) (r : Rect b.ty.shape)
    (h h2 : s'.numel = r.shape.numel) (g : b.ty.Contents Val) (x : r.shape.Idx) :
    ReadAs.same.apply (View.read Val (((View.whole b).slice r).reshape s' h) g) ((Shape.reshapeEquiv h2).symm x) = g (r.emb x) := by
  show View.read Val (((View.whole b).slice r).reshape s' h) g ((Shape.reshapeEquiv h2).symm x) = g (r.emb x)
  rw [View.read_apply]
  simp only [View.emb_reshape, View.emb_slice, View.emb_whole, Function.Embedding.trans_apply, Equiv.coe_toEmbedding,
    Function.Embedding.refl_apply, cast_eq]
  exact congrArg (fun y => g (r.emb y)) (Equiv.apply_symm_apply (Shape.reshapeEquiv h) x)

/-! ## The launch memory -/

variable (m : (ℓ : Loc nD τ sig) → Buf (Elt Ideal) ℓ)

/-- The precondition at the instance the claims take. -/
abbrev Pre : Prop := @Cert.Pre_KernelIdeal Cert.Pre_finite_inputs.Gen.facts m

/-- The tables' side condition is empty: no window's index map reads the table. -/
theorem ok : Ok m := by unfold Ok ok0; trivial

/-- There is one core. -/
theorem core0 (c : Dev nD) : c = 0 := Subsingleton.elim _ _

/-- The task and the depth sample `b` routes to: its two words, which the precondition puts in range. -/
def Pw (h : Pre m) (c : Dev nD) (b : Fin 128) : Fin 10 := ⟨(taskW m c (ix1 b)).toNat, (word_ranges m h c b).1⟩
def Lw (h : Pre m) (c : Dev nD) (b : Fin 128) : Fin 12 := ⟨(depthW m c (ix1 b)).toNat, (word_ranges m h c b).2⟩

/-! ## The row words -/

/-- The four table offsets the body reads at point t are 4t, 4t+1, 4t+2, 4t+3 (decided over the 32 points). -/
theorem off_facts : ∀ t : Fin grid0.N, k0_off1 (grid0.coords t) 0 = 4 * t.val + 0 ∧ k0_off6 (grid0.coords t) 0 = 4 * t.val + 1
    ∧ k0_off11 (grid0.coords t) 0 = 4 * t.val + 2 ∧ k0_off16 (grid0.coords t) 0 = 4 * t.val + 3 := by decide +kernel

/-- The word read through the one-entry rectangle at offset `j` of the table is the table's entry `j`. -/
theorem word_read (off : Fin 1 → ℕ) (j : Fin 128) (hoff : off 0 = j.val) (inb : ∀ a, off a + S1.size a ≤ S128.size a)
    (h1 : 0 < S1.numel) :
    View.readAt (Elt Ideal) (View.whole main_v11) (Rect.unit (s := S128) off S1.size inb).toLoadRect (tbl m 0) (Shape.Idx.first h1)
      = rowW m (ix1 j) := by
  have e : (Rect.unit (s := S128) off S1.size inb).toLoadRect.idx (Shape.Idx.first h1) = ix1 j := by
    funext a
    apply Fin.ext
    match a with
    | ⟨0, _⟩ =>
      show off 0 + 1 * (Shape.Idx.first h1 (0 : Fin 1)).val = j.val
      have h0 : (Shape.Idx.first h1 (0 : Fin 1)).val < 1 := (Shape.Idx.first h1 (0 : Fin 1)).isLt
      omega
  exact congrArg (tbl m 0) e

/-- The flat row of sample `b` is the pair (task, depth) of sample `b`. -/
theorem pair_of_row (h : Pre m) (c : Dev nD) (b : Fin 128) (hw : (rowW m (ix1 b)).toNat < 120) :
    pr ⟨(rowW m (ix1 b)).toNat, hw⟩ = Pw m h c b ∧ lr ⟨(rowW m (ix1 b)).toNat, hw⟩ = Lw m h c b := by
  obtain rfl := core0 c
  have e := tbl_toNat m h b
  obtain ⟨ht, hd⟩ := word_ranges m h 0 b
  constructor
  · apply Fin.ext; show (rowW m (ix1 b)).toNat / 12 = (taskW m 0 (ix1 b)).toNat; omega
  · apply Fin.ext; show (rowW m (ix1 b)).toNat % 12 = (depthW m 0 (ix1 b)).toNat; omega

/-! ## The x window's slots -/

/-- The x window's index map sends point t to block (t, 0, 0) (decided over the 32 points). -/
theorem xidx_facts : ∀ t : Fin grid0.N, cc0_transform_0 (grid0.coords t) 0 = t.val ∧ cc0_transform_0 (grid0.coords t) 1 = 0
    ∧ cc0_transform_0 (grid0.coords t) 2 = 0 := by decide +kernel

set_option backward.isDefEq.respectTransparency.types false in
/-- Slot n of the x block at point t is sample 4t+n of x. -/
theorem iblk_apply (hO : Ok m) (c : Dev nD) (t : Fin (cfgM m hO).N) (n : Fin 4) (s : Fin 197) (k : Fin 768)
    (b : Fin 128) (hb : b.val = 4 * t.val + n.val) :
    (iblk m hO c 0 t : S4x197x768.Idx → EReal) (ix3 n s k)
      = (m ((c : Thread nD τ).loc main_arg0) : S128x197x768.Idx → EReal) (ix3 b s k) := by
  obtain ⟨e0, e1, e2⟩ := xidx_facts t
  unfold iblk
  rw [View.read_apply]
  show V m c main_arg0 _ = m (c.tc.loc main_arg0) _
  rw [V_main_arg0]
  congr 1
  funext a
  apply Fin.ext
  match a with
  | ⟨0, _⟩ => show cc0_transform_0 (grid0.coords t) 0 * 4 + 1 * n.val = b.val; rw [e0, hb]; omega
  | ⟨1, _⟩ => show cc0_transform_0 (grid0.coords t) 1 * 197 + 1 * s.val = s.val; rw [e1]; omega
  | ⟨2, _⟩ => show cc0_transform_0 (grid0.coords t) 2 * 768 + 1 * k.val = k.val; rw [e2]; omega

set_option backward.isDefEq.respectTransparency.types false in
/-- The body's load of slot n of the x block, at (0, s, k), is sample 4t+n of x at (s, k). -/
theorem x_slot (hO : Ok m) (c : Dev nD) (t : Fin (cfgM m hO).N) (n : ℕ) (hn : n < 4)
    (inb : ∀ a, (![n, 0, 0] : Fin 3 → ℕ) a + (![1, 197, 768] : Fin 3 → ℕ) a ≤ S4x197x768.size a)
    (b : Fin 128) (hb : b.val = 4 * t.val + n) (s : Fin 197) (k : Fin 768) :
    View.readAt (Elt Ideal) (ms0_0 m hO t).view (Rect.unit (s := S4x197x768) ![n, 0, 0] ![1, 197, 768] inb).toLoadRect
        ((hs0_0 m hO t).unread (iblk m hO c 0 t)) (ix3 0 s k)
      = (m ((c : Thread nD τ).loc main_arg0) : S128x197x768.Idx → EReal) (ix3 b s k) := by
  rw [View.readAt_eq_ld, Memref.IsWhole.read_unread]
  show (iblk m hO c 0 t : S4x197x768.Idx → EReal) ((Rect.unit (s := S4x197x768) ![n, 0, 0] ![1, 197, 768] inb).emb (ix3 0 s k)) = _
  rw [emb_row hn]
  exact iblk_apply m hO c t ⟨n, hn⟩ s k b hb

/-! ## The copied rows -/

/-- Row w of the padded down-projection, copied and read back at (0, k, r). -/
theorem dp_copy (c : Dev nD) (off : Fin 3 → ℕ) (w : ℕ) (hw : w < 120) (hoff : off = ![w, 0, 0])
    (inb : ∀ a, off a + (![1, 768, 128] : Fin 3 → ℕ) a ≤ S120x768x128.size a)
    (hq hq2 : S768x128.numel = (Rect.unit (s := S120x768x128) off ![1, 768, 128] inb).shape.numel) (k : Fin 768) (r : Fin 128) :
    ReadAs.same.apply (View.read (Elt Ideal) (((View.whole main_v1).slice (Rect.unit (s := S120x768x128) off ![1, 768, 128] inb)).reshape S768x128 hq) (V m c main_v1))
        ((Shape.reshapeEquiv hq2).symm (ix3 0 k r))
      = Cert.Adapter.pad64 0 (fun r' => (m ((c : Thread nD τ).loc main_arg1) : S10x12x768x64.Idx → EReal) (ix4 (pr ⟨w, hw⟩) (lr ⟨w, hw⟩) k r')) r := by
  subst hoff
  rw [copy_read, emb_row hw]
  exact V_v1_apply m c ⟨w, hw⟩ k r

/-- Row w of the padded down bias, copied and read back at (0, 0, r). -/
theorem db_copy (c : Dev nD) (off : Fin 3 → ℕ) (w : ℕ) (hw : w < 120) (hoff : off = ![w, 0, 0])
    (inb : ∀ a, off a + (![1, 1, 128] : Fin 3 → ℕ) a ≤ S120x1x128.size a)
    (hq hq2 : S1x128.numel = (Rect.unit (s := S120x1x128) off ![1, 1, 128] inb).shape.numel) (r : Fin 128) :
    ReadAs.same.apply (View.read (Elt Ideal) (((View.whole main_v6).slice (Rect.unit (s := S120x1x128) off ![1, 1, 128] inb)).reshape S1x128 hq) (V m c main_v6))
        ((Shape.reshapeEquiv hq2).symm (ix3 0 0 r))
      = Cert.Adapter.pad64 0 (fun r' => (m ((c : Thread nD τ).loc main_arg2) : S10x12x64.Idx → EReal) (ix3 (pr ⟨w, hw⟩) (lr ⟨w, hw⟩) r')) r := by
  subst hoff
  rw [copy_read, emb_row hw]
  exact V_v6_apply m c ⟨w, hw⟩ r

/-- Row w of the padded up-projection, copied and read back at (0, r, d). -/
theorem up_copy (c : Dev nD) (off : Fin 3 → ℕ) (w : ℕ) (hw : w < 120) (hoff : off = ![w, 0, 0])
    (inb : ∀ a, off a + (![1, 128, 768] : Fin 3 → ℕ) a ≤ S120x128x768.size a)
    (hq hq2 : S128x768.numel = (Rect.unit (s := S120x128x768) off ![1, 128, 768] inb).shape.numel) (r : Fin 128) (d : Fin 768) :
    ReadAs.same.apply (View.read (Elt Ideal) (((View.whole main_v3).slice (Rect.unit (s := S120x128x768) off ![1, 128, 768] inb)).reshape S128x768 hq) (V m c main_v3))
        ((Shape.reshapeEquiv hq2).symm (ix3 0 r d))
      = Cert.Adapter.pad64 0 (fun r' => (m ((c : Thread nD τ).loc main_arg3) : S10x12x64x768.Idx → EReal) (ix4 (pr ⟨w, hw⟩) (lr ⟨w, hw⟩) r' d)) r := by
  subst hoff
  rw [copy_read, emb_row hw]
  exact V_v3_apply m c ⟨w, hw⟩ r d

/-- Row w of the up bias, copied and read back at (0, 0, d). -/
theorem ub_copy (c : Dev nD) (off : Fin 3 → ℕ) (w : ℕ) (hw : w < 120) (hoff : off = ![w, 0, 0])
    (inb : ∀ a, off a + (![1, 1, 768] : Fin 3 → ℕ) a ≤ S120x1x768.size a)
    (hq hq2 : S1x768.numel = (Rect.unit (s := S120x1x768) off ![1, 1, 768] inb).shape.numel) (d : Fin 768) :
    ReadAs.same.apply (View.read (Elt Ideal) (((View.whole main_v8).slice (Rect.unit (s := S120x1x768) off ![1, 1, 768] inb)).reshape S1x768 hq) (V m c main_v8))
        ((Shape.reshapeEquiv hq2).symm (ix3 0 0 d))
      = (m ((c : Thread nD τ).loc main_arg4) : S10x12x768.Idx → EReal) (ix3 (pr ⟨w, hw⟩) (lr ⟨w, hw⟩) d) := by
  subst hoff
  rw [copy_read, emb_row hw]
  exact V_v8_apply m c ⟨w, hw⟩ d

end Cert.KernelIdeal.KLoads

end
-- ==== Proof.PayValue.lean ====
/-
  The kernel's arithmetic for one sample, read at an index at the ideal instance.

  One sample's arithmetic appears four times, cut into named pieces at a different place each time; the
  pieces compose to the same chain of operations, so the four are one function of the five blocks read
  (`pay4_eq`, `pay9_eq`, `pay11_eq`). Read at row `s`, column `d` over the extended reals that function is
      ( Σ_r max( Σ_k x[0,s,k] · dp[0,k,r] + db[0,0,r], 0 ) · up[0,r,d] + ub[0,0,d] ) · 1 + x[0,s,d]
  (`pay12_apply`): the shape casts only drop or add unit axes, the narrowing to bf16 is the identity on the extended
  reals, each product into the zero accumulator is the sum over its one shared axis, and the bias rows are
  one row repeated over the 197 rows.
-/
import proofs.«428897_j1073741824233_3_alg».proof.Proof.Gen.KernelIdeal.Skeleton
import proofs.«428897_j1073741824233_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

section Cuts
variable {F : FTy → Type} [FloatOps F]

theorem pay4_eq (x : Vec F S1x197x768 .f32) (dp : Vec F S1x768x128 .f32) (db : Vec F S1x1x128 .f32)
    (up : Vec F S1x128x768 .f32) (ub : Vec F S1x1x768 .f32) :
    k0_pay4 (k0_pay1 x) (k0_pay2 dp) (k0_pay3 db) up ub = k0_pay12 x dp db up ub := rfl

theorem pay9_eq (x : Vec F S1x197x768 .f32) (dp : Vec F S1x768x128 .f32) (db : Vec F S1x1x128 .f32)
    (up : Vec F S1x128x768 .f32) (ub : Vec F S1x1x768 .f32) :
    k0_pay9 (k0_pay5 x) (k0_pay6 up) (k0_pay7 ub) (k0_pay8 x dp db) = k0_pay12 x dp db up ub := rfl

theorem pay11_eq (x : Vec F S1x197x768 .f32) (dp : Vec F S1x768x128 .f32) (db : Vec F S1x1x128 .f32)
    (up : Vec F S1x128x768 .f32) (ub : Vec F S1x1x768 .f32) :
    k0_pay11 (k0_pay10 x dp db up ub) = k0_pay12 x dp db up ub := rfl
end Cuts

/-! ## The down-projection's operand indices, axis by axis

At result index (p, r) and shared coordinate k the left operand is read at (p, k), the right one at (k, r). -/

theorem lhs_down_0 (i : S197x128.Idx) (q : dot_S197x768_S768x128_S197x128_1_0_0_1_n_n.contr.Idx) :
    (dot_S197x768_S768x128_S197x128_1_0_0_1_n_n.lhsIdx i q 0).val = (i 0).val := by
  unfold DotDims.lhsIdx
  rw [dif_neg (show ¬(0 : Fin S197x768.rank) ∈ dot_S197x768_S768x128_S197x128_1_0_0_1_n_n.lhsBatch by decide), dif_pos (show (0 : Fin S197x768.rank) ∈ dot_S197x768_S768x128_S197x128_1_0_0_1_n_n.lhsNonContracting by decide)]
  rfl
theorem lhs_down_1 (i : S197x128.Idx) (q : dot_S197x768_S768x128_S197x128_1_0_0_1_n_n.contr.Idx) :
    (dot_S197x768_S768x128_S197x128_1_0_0_1_n_n.lhsIdx i q 1).val = (q ⟨0, by decide⟩).val :=
  dot_S197x768_S768x128_S197x128_1_0_0_1_n_n.lhsIdx_val_of_single rfl i q
theorem rhs_down_0 (i : S197x128.Idx) (q : dot_S197x768_S768x128_S197x128_1_0_0_1_n_n.contr.Idx) :
    (dot_S197x768_S768x128_S197x128_1_0_0_1_n_n.rhsIdx i q 0).val = (q ⟨0, by decide⟩).val :=
  dot_S197x768_S768x128_S197x128_1_0_0_1_n_n.rhsIdx_val_of_single rfl i q
theorem rhs_down_1 (i : S197x128.Idx) (q : dot_S197x768_S768x128_S197x128_1_0_0_1_n_n.contr.Idx) :
    (dot_S197x768_S768x128_S197x128_1_0_0_1_n_n.rhsIdx i q 1).val = (i 1).val := by
  unfold DotDims.rhsIdx
  rw [dif_neg (show ¬(1 : Fin S768x128.rank) ∈ dot_S197x768_S768x128_S197x128_1_0_0_1_n_n.rhsBatch by decide), dif_pos (show (1 : Fin S768x128.rank) ∈ dot_S197x768_S768x128_S197x128_1_0_0_1_n_n.rhsNonContracting by decide)]
  rfl

/-- The down-projection: a [197,768] by [768,128] product into the zero accumulator is, at (p, r), the sum over the
    768 shared coordinates. -/
theorem down_apply (a : FVec Ideal S197x768 .bf16) (b : FVec Ideal S768x128 .bf16) (p : Fin 197) (r : Fin 128) :
    matmul dot_S197x768_S768x128_S197x128_1_0_0_1_n_n none a b (constant (F := Ideal) S197x128 .f32 0x00000000#32) (ix2 p r)
      = ∑ k : Fin 768, a (ix2 p k) * b (ix2 k r) := by
  refine (Ideal.matmul_constant_zero_apply dot_S197x768_S768x128_S197x128_1_0_0_1_n_n none a b (ix2 p r)).trans ?_
  rw [← Equiv.sum_comp (ValueIdx.contrEquiv1 dot_S197x768_S768x128_S197x128_1_0_0_1_n_n 768 rfl rfl).symm]
  refine Finset.sum_congr rfl fun k _ => ?_
  have hk := ValueIdx.contrEquiv1_symm_val dot_S197x768_S768x128_S197x128_1_0_0_1_n_n 768 rfl rfl k
  have el : dot_S197x768_S768x128_S197x128_1_0_0_1_n_n.lhsIdx (ix2 p r) ((ValueIdx.contrEquiv1 dot_S197x768_S768x128_S197x128_1_0_0_1_n_n 768 rfl rfl).symm k) = ix2 p k := funext fun c => Fin.ext (by
    match c with
    | ⟨0, _⟩ => exact lhs_down_0 _ _
    | ⟨1, _⟩ => exact (lhs_down_1 _ _).trans hk)
  have er : dot_S197x768_S768x128_S197x128_1_0_0_1_n_n.rhsIdx (ix2 p r) ((ValueIdx.contrEquiv1 dot_S197x768_S768x128_S197x128_1_0_0_1_n_n 768 rfl rfl).symm k) = ix2 k r := funext fun c => Fin.ext (by
    match c with
    | ⟨0, _⟩ => exact (rhs_down_0 _ _).trans hk
    | ⟨1, _⟩ => exact rhs_down_1 _ _)
  rw [el, er]

/-! ## The up-projection's operand indices, axis by axis

At result index (p, c) and shared coordinate r the left operand is read at (p, r), the right one at (r, c). -/

theorem lhs_up_0 (i : S197x768.Idx) (q : dot_S197x128_S128x768_S197x768_1_0_0_1_n_n.contr.Idx) :
    (dot_S197x128_S128x768_S197x768_1_0_0_1_n_n.lhsIdx i q 0).val = (i 0).val := by
  unfold DotDims.lhsIdx
  rw [dif_neg (show ¬(0 : Fin S197x128.rank) ∈ dot_S197x128_S128x768_S197x768_1_0_0_1_n_n.lhsBatch by decide), dif_pos (show (0 : Fin S197x128.rank) ∈ dot_S197x128_S128x768_S197x768_1_0_0_1_n_n.lhsNonContracting by decide)]
  rfl
theorem lhs_up_1 (i : S197x768.Idx) (q : dot_S197x128_S128x768_S197x768_1_0_0_1_n_n.contr.Idx) :
    (dot_S197x128_S128x768_S197x768_1_0_0_1_n_n.lhsIdx i q 1).val = (q ⟨0, by decide⟩).val :=
  dot_S197x128_S128x768_S197x768_1_0_0_1_n_n.lhsIdx_val_of_single rfl i q
theorem rhs_up_0 (i : S197x768.Idx) (q : dot_S197x128_S128x768_S197x768_1_0_0_1_n_n.contr.Idx) :
    (dot_S197x128_S128x768_S197x768_1_0_0_1_n_n.rhsIdx i q 0).val = (q ⟨0, by decide⟩).val :=
  dot_S197x128_S128x768_S197x768_1_0_0_1_n_n.rhsIdx_val_of_single rfl i q
theorem rhs_up_1 (i : S197x768.Idx) (q : dot_S197x128_S128x768_S197x768_1_0_0_1_n_n.contr.Idx) :
    (dot_S197x128_S128x768_S197x768_1_0_0_1_n_n.rhsIdx i q 1).val = (i 1).val := by
  unfold DotDims.rhsIdx
  rw [dif_neg (show ¬(1 : Fin S128x768.rank) ∈ dot_S197x128_S128x768_S197x768_1_0_0_1_n_n.rhsBatch by decide), dif_pos (show (1 : Fin S128x768.rank) ∈ dot_S197x128_S128x768_S197x768_1_0_0_1_n_n.rhsNonContracting by decide)]
  rfl

/-- The up-projection: a [197,128] by [128,768] product into the zero accumulator is, at (p, c), the sum over the
    128 shared coordinates. -/
theorem up_apply (a : FVec Ideal S197x128 .bf16) (b : FVec Ideal S128x768 .bf16) (p : Fin 197) (c : Fin 768) :
    matmul dot_S197x128_S128x768_S197x768_1_0_0_1_n_n none a b (constant (F := Ideal) S197x768 .f32 0x00000000#32) (ix2 p c)
      = ∑ r : Fin 128, a (ix2 p r) * b (ix2 r c) := by
  refine (Ideal.matmul_constant_zero_apply dot_S197x128_S128x768_S197x768_1_0_0_1_n_n none a b (ix2 p c)).trans ?_
  rw [← Equiv.sum_comp (ValueIdx.contrEquiv1 dot_S197x128_S128x768_S197x768_1_0_0_1_n_n 128 rfl rfl).symm]
  refine Finset.sum_congr rfl fun r _ => ?_
  have hr := ValueIdx.contrEquiv1_symm_val dot_S197x128_S128x768_S197x768_1_0_0_1_n_n 128 rfl rfl r
  have el : dot_S197x128_S128x768_S197x768_1_0_0_1_n_n.lhsIdx (ix2 p c) ((ValueIdx.contrEquiv1 dot_S197x128_S128x768_S197x768_1_0_0_1_n_n 128 rfl rfl).symm r) = ix2 p r := funext fun e => Fin.ext (by
    match e with
    | ⟨0, _⟩ => exact lhs_up_0 _ _
    | ⟨1, _⟩ => exact (lhs_up_1 _ _).trans hr)
  have er : dot_S197x128_S128x768_S197x768_1_0_0_1_n_n.rhsIdx (ix2 p c) ((ValueIdx.contrEquiv1 dot_S197x128_S128x768_S197x768_1_0_0_1_n_n 128 rfl rfl).symm r) = ix2 r c := funext fun e => Fin.ext (by
    match e with
    | ⟨0, _⟩ => exact (rhs_up_0 _ _).trans hr
    | ⟨1, _⟩ => exact rhs_up_1 _ _)
  rw [el, er]

/-! ## A bias row: two unit axes dropped, one put back, the row repeated -/

/-- A [1, 1, a] array cast to [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A [1, 1, b] row cast to [b], then to [1, b], then repeated over a rows, reads at (p, c) the row at c. -/
theorem biasRow_apply {α : Type} {a b : ℕ} (v : (⟨3, ![1, 1, b]⟩ : Shape).Idx → α)
    (h1 : (⟨3, ![1, 1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) h3 (ix2 p c) = v (ix3 (0 : Fin 1) (0 : Fin 1) c) :=
  (broadcastTo_1b_ab_apply _ h3 p c).trans ((shapeCast_a_1a_apply _ h2 0 c).trans (shapeCast_11a_a_apply v h1 c))

/-! ## The sample's value -/

theorem pay12_apply (x : Vec Ideal S1x197x768 .f32) (dp : Vec Ideal S1x768x128 .f32) (db : Vec Ideal S1x1x128 .f32)
    (up : Vec Ideal S1x128x768 .f32) (ub : Vec Ideal S1x1x768 .f32) (s : Fin 197) (d : Fin 768) :
    k0_pay12 (F := Ideal) x dp db up ub (ix3 0 s d)
      = Cert.Adapter.sampleR (R := 128) (fun s k => x (ix3 0 s k)) (fun k r => dp (ix3 0 k r)) (fun r => db (ix3 0 0 r))
          (fun r d => up (ix3 0 r d)) (fun d => ub (ix3 0 0 d)) s d := by
  unfold k0_pay12 Cert.Adapter.sampleR
  -- the outer cast adds the unit axis back; under it: (product + bias row) · 1 + x
  refine (shapeCast_ab_1ab_apply _ _ 0 s d).trans ?_
  refine (addf_apply _ _ _).trans ?_
  refine congrArg₂ (· + ·) ?_ (shapeCast_1ab_ab_apply x _ s d)
  refine (mulf_apply _ _ _).trans ?_
  refine congrArg₂ (· * ·) ?_ rfl
  refine (addf_apply _ _ _).trans ?_
  refine congrArg₂ (· + ·) ?_ (biasRow_apply ub _ _ _ s d)
  -- the up-projection, column by column of the hidden layer
  refine (up_apply _ _ s d).trans ?_
  refine Finset.sum_congr rfl fun r _ => ?_
  refine congrArg₂ (· * ·) ?_ (shapeCast_1ab_ab_apply up _ r d)
  -- the hidden layer at (s, r): the floor at 0 of the down-projection plus its bias
  refine (maximumf_apply _ _ _).trans ?_
  refine congrArg₂ max ?_ rfl
  refine (addf_apply _ _ _).trans ?_
  refine congrArg₂ (· + ·) ?_ (biasRow_apply db _ _ _ s r)
  refine (down_apply _ _ s r).trans ?_
  exact Finset.sum_congr rfl fun k _ => congrArg₂ (· * ·) (shapeCast_1ab_ab_apply x _ s k) (shapeCast_1ab_ab_apply dp _ k r)

end Cert.KernelIdeal.PayValue

end
-- ==== Proof.PieceValue.lean ====
/-
  One sample of the kernel against the adapter function.

  The kernel body computes sample n of a grid point from five loaded blocks: the sample's rows of x, and row w of each
  of the four prepared weight arrays (w the sample's flat row word). When those blocks are the argument arrays' entries —
  x at sample b; the three padded weights at pair (p, l) through the zero padding of their 64 inner columns to 128; the
  up bias at pair (p, l) — the body's expression at row s, column d is the adapter function `G` at (b, s, d), provided
  (p, l) is the pair sample b routes to: the body's expression is `sampleR` over 128 inner columns (PayValue), the
  padding columns contribute nothing (Spec's `sampleR_pad`), and `G` is `sampleR` over the 64 columns.
-/
import proofs.«428897_j1073741824233_3_alg».proof.Proof.PayValue
import proofs.«428897_j1073741824233_3_alg».proof.Proof.Spec

noncomputable section

namespace Cert.KernelIdeal.PieceValue

open Cert.KernelIdeal Cert.KernelIdeal.Gen Idealize.ShloMosaic Idealize.ShloMosaic.ValueIdx Cert.Adapter

theorem piece_value (X : Vec Ideal S1x197x768 .f32) (D0 : Vec Ideal S1x768x128 .f32) (D1 : Vec Ideal S1x1x128 .f32)
    (D2 : Vec Ideal S1x128x768 .f32) (D3 : Vec Ideal S1x1x768 .f32)
    (xa : (⟨3, ![128, 197, 768]⟩ : Shape).Idx → EReal) (a1 : (⟨4, ![10, 12, 768, 64]⟩ : Shape).Idx → EReal)
    (a2 : (⟨3, ![10, 12, 64]⟩ : Shape).Idx → EReal) (a3 : (⟨4, ![10, 12, 64, 768]⟩ : Shape).Idx → EReal)
    (a4 : (⟨3, ![10, 12, 768]⟩ : Shape).Idx → EReal) (P : Fin 128 → Fin 10) (L : Fin 128 → Fin 12) (b : Fin 128)
    (hX : ∀ s k, X (ix3 0 s k) = xa (ix3 b s k))
    (hD0 : ∀ k r, D0 (ix3 0 k r) = pad64 0 (fun r' => a1 (ix4 (P b) (L b) k r')) r)
    (hD1 : ∀ r, D1 (ix3 0 0 r) = pad64 0 (fun r' => a2 (ix3 (P b) (L b) r')) r)
    (hD2 : ∀ r d, D2 (ix3 0 r d) = pad64 0 (fun r' => a3 (ix4 (P b) (L b) r' d)) r)
    (hD3 : ∀ d, D3 (ix3 0 0 d) = a4 (ix3 (P b) (L b) d))
    (s : Fin 197) (d : Fin 768) :
    k0_pay12 (F := Ideal) X D0 D1 D2 D3 (ix3 0 s d) = G xa a1 a2 a3 a4 P L b s d := by
  rw [Cert.KernelIdeal.PayValue.pay12_apply]
  unfold G
  rw [← sampleR_pad]
  have e0 : (fun s k => X (ix3 0 s k)) = fun s k => xa (ix3 b s k) := funext fun s => funext fun k => hX s k
  have e1 : (fun k r => D0 (ix3 0 k r)) = fun k => pad64 0 (fun r' => a1 (ix4 (P b) (L b) k r')) :=
    funext fun k => funext fun r => hD0 k r
  have e2 : (fun r => D1 (ix3 0 0 r)) = pad64 0 (fun r' => a2 (ix3 (P b) (L b) r')) := funext fun r => hD1 r
  have e3 : (fun r d => D2 (ix3 0 r d)) = fun r d => pad64 0 (fun r' => a3 (ix4 (P b) (L b) r' d)) r :=
    funext fun r => funext fun d => hD2 r d
  have e4 : (fun d => D3 (ix3 0 0 d)) = fun d => a4 (ix3 (P b) (L b) d) := funext fun d => hD3 d
  rw [e0, e1, e2, e3, e4]

end Cert.KernelIdeal.PieceValue

end
-- ==== Proof.KValue.lean ====
/-
  The kernel's value: the result array after the run is the adapter function of the argument arrays.

  At grid point t the body handles samples 4t … 4t+3. For slot n of the point it reads the row word w = table[4t+n],
  copies row w of each of the four prepared weight arrays into slot n of its four scratch buffers, waits for those
  copies, and stores into slot n of the output block the one-sample expression of slot n of the x block and the four
  copied rows. Slot n of the x block is sample 4t+n of x; the copied rows are the weights of the pair sample 4t+n routes
  to, through the zero padding (KLoads). So the piece stored into slot n is the adapter function at sample 4t+n
  (PieceValue), the block the point leaves is the adapter function on samples 4t … 4t+3, and the 32 blocks tile the
  result array.
-/
import proofs.«428897_j1073741824233_3_alg».proof.Defs
import proofs.«428897_j1073741824233_3_alg».proof.Proof.KernelIdealFrame
import proofs.«428897_j1073741824233_3_alg».proof.Proof.KLoads
import proofs.«428897_j1073741824233_3_alg».proof.Proof.PieceValue
import proofs.«428897_j1073741824233_3_alg».proof.Proof.PayValue
import Idealize.ShloMosaic.Lib.Pipeline.Value

set_option maxRecDepth 16384

noncomputable section

namespace Cert.KernelIdeal.KValue

open Cert.KernelIdeal Cert.KernelIdeal.Gen Cert.KernelIdeal.HypsOfPre Cert.KernelIdeal.HostPrefix Cert.KernelIdeal.KLoads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- THE VALUE the result array ends holding on core `c`. -/
abbrev val (h : Pre m) (c : Dev nD) : S128x197x768.Idx → EReal :=
  Cert.Adapter.Garr (m ((c : Thread nD τ).loc main_arg0)) (m ((c : Thread nD τ).loc main_arg1)) (m ((c : Thread nD τ).loc main_arg2))
    (m ((c : Thread nD τ).loc main_arg3)) (m ((c : Thread nD τ).loc main_arg4)) (Pw m h c) (Lw m h c)

/-- What the output block holds after point `tv`: the value at samples 4·tv … 4·tv+3. -/
def blockVal (h : Pre m) (c : Dev nD) (tv : ℕ) (htv : tv < 32) : S4x197x768.Idx → EReal :=
  fun y => val m h c (ix3 ⟨4 * tv + (y 0).val, by have h4 : (y 0).val < 4 := (y 0).isLt; omega⟩ (y 1) (y 2))

/-- One slot: the one-sample expression of blocks that are sample `b`'s rows of x and row `w` of the prepared weights, `w`
    the table's word for sample `b`, is the value at sample `b`. -/
theorem slot_value (h : Pre m) (c : Dev nD) (b : Fin 128) (w : BitVec 32) (hwb : w = rowW m (ix1 b)) (hw : w.toNat < 120)
    (X : Vec Ideal S1x197x768 .f32) (D0 : Vec Ideal S1x768x128 .f32) (D1 : Vec Ideal S1x1x128 .f32)
    (D2 : Vec Ideal S1x128x768 .f32) (D3 : Vec Ideal S1x1x768 .f32)
    (hX : ∀ s k, X (ix3 0 s k) = (m ((c : Thread nD τ).loc main_arg0) : S128x197x768.Idx → EReal) (ix3 b s k))
    (hD0 : ∀ k r, D0 (ix3 0 k r) = Cert.Adapter.pad64 0 (fun r' => (m ((c : Thread nD τ).loc main_arg1) : S10x12x768x64.Idx → EReal) (ix4 (pr ⟨w.toNat, hw⟩) (lr ⟨w.toNat, hw⟩) k r')) r)
    (hD1 : ∀ r, D1 (ix3 0 0 r) = Cert.Adapter.pad64 0 (fun r' => (m ((c : Thread nD τ).loc main_arg2) : S10x12x64.Idx → EReal) (ix3 (pr ⟨w.toNat, hw⟩) (lr ⟨w.toNat, hw⟩) r')) r)
    (hD2 : ∀ r d, D2 (ix3 0 r d) = Cert.Adapter.pad64 0 (fun r' => (m ((c : Thread nD τ).loc main_arg3) : S10x12x64x768.Idx → EReal) (ix4 (pr ⟨w.toNat, hw⟩) (lr ⟨w.toNat, hw⟩) r' d)) r)
    (hD3 : ∀ d, D3 (ix3 0 0 d) = (m ((c : Thread nD τ).loc main_arg4) : S10x12x768.Idx → EReal) (ix3 (pr ⟨w.toNat, hw⟩) (lr ⟨w.toNat, hw⟩) d))
    (s : Fin 197) (d : Fin 768) :
    k0_pay12 (F := Ideal) X D0 D1 D2 D3 (ix3 0 s d) = val m h c (ix3 b s d) := by
  subst hwb
  obtain ⟨eP, eL⟩ := pair_of_row m h c b hw
  simp only [eP, eL] at hD0 hD1 hD2 hD3
  show _ = Cert.Adapter.G _ _ _ _ _ (Pw m h c) (Lw m h c) b s d
  exact Cert.KernelIdeal.PieceValue.piece_value X D0 D1 D2 D3 _ _ _ _ _ (Pw m h c) (Lw m h c) b hX hD0 hD1 hD2 hD3 s d

/-- The body is printed with its payload cut at different places for the four slots; each cut is the same expression. -/
theorem cut4 (X : Vec Ideal S1x197x768 .f32) (D0 : Vec Ideal S1x768x128 .f32) (D1 : Vec Ideal S1x1x128 .f32)
    (D2 : Vec Ideal S1x128x768 .f32) (D3 : Vec Ideal S1x1x768 .f32) (h1 : S1x197x768.ShapeCasts S197x768)
    (h2 : S1x768x128.ShapeCasts S768x128) (h3 : S1x1x128.ShapeCasts S128) :
    k0_pay4 (F := Ideal) (shapeCast S197x768 X h1) (shapeCast S768x128 D0 h2) (shapeCast S128 D1 h3) D2 D3 = k0_pay12 X D0 D1 D2 D3 :=
  Cert.KernelIdeal.PayValue.pay4_eq X D0 D1 D2 D3
theorem cut11 (X : Vec Ideal S1x197x768 .f32) (D0 : Vec Ideal S1x768x128 .f32) (D1 : Vec Ideal S1x1x128 .f32)
    (D2 : Vec Ideal S1x128x768 .f32) (D3 : Vec Ideal S1x1x768 .f32) (h1 : S197x768.ShapeCasts S1x197x768) :
    shapeCast S1x197x768 (k0_pay10 (F := Ideal) X D0 D1 D2 D3) h1 = k0_pay12 X D0 D1 D2 D3 :=
  Cert.KernelIdeal.PayValue.pay11_eq X D0 D1 D2 D3

set_option backward.isDefEq.respectTransparency.types false in
/-- THE OUTPUT BLOCK the body leaves at point t is the value on samples 4t … 4t+3. -/
theorem outs_eq (h : Pre m) (c : Dev nD) (t : Fin (cfgM m (ok m)).N) :
    GenP.outsAt0 m (ok m) (hyps_of_pre m h (ok m)) c t = blockVal m h c t.val (lt_of_lt_of_eq (show t.val < grid0.N from t.isLt) N_0) := by
  unfold GenP.outsAt0 GenP.out0_A_1
  rw [View.read_writes_eq_canon _ _ _ (GenP.cover0_A_1 c _ _ _ _ _ _ _ _ _ _ _ _ _ _ _ _ _ _ _ _ _ _ _)]
  funext y
  refine View.canon_apply_of_pieces (Val := Elt Ideal) (e := .f32) (blockVal m h c t.val (lt_of_lt_of_eq (show t.val < grid0.N from t.isLt) N_0)) _ ?_ y (GenP.cover0_A_1 c _ _ _ _ _ _ _ _ _ _ _ _ _ _ _ _ _ _ _ _ _ _ _ y)
  unfold GenP.kernelRun0_A
  dsimp only
  intro p hp x
  simp only [List.mem_cons, List.mem_nil_iff, or_false] at hp
  obtain ⟨o0, o1, o2, o3⟩ := off_facts t
  have htN : t.val < 32 := lt_of_lt_of_eq (show t.val < grid0.N from t.isLt) N_0
  rcases hp with rfl | rfl | rfl | rfl
  -- the four pieces, last store first
  · -- slot 3: sample 4t+3
    dsimp only
    obtain ⟨s, d, rfl⟩ : ∃ s d, x = ix3 0 s d := ⟨x 1, x 2, lead0 x⟩
    have hwr := (word_read m (k0_off16 (grid0.coords t)) ⟨4 * t.val + 3, by omega⟩ o3 (k0_off16_inb (grid0.coords t)) (numel1_S1.symm ▸ Nat.one_pos))
    refine Eq.trans (slot_value m h c ⟨4 * t.val + 3, by omega⟩ _ hwr (by rw [hwr]; exact tbl_lt m h _) _ _ _ _ _
      ?hX3 ?hD03 ?hD13 ?hD23 ?hD33 s d) ?_
    case hX3 => intro s k; exact x_slot m (ok m) c t 3 (by omega) _ _ rfl s k
    case hD03 => intro k r; exact dp_copy m c _ _ _ rfl _ _ _ k r
    case hD13 => intro r; exact db_copy m c _ _ _ rfl _ _ _ r
    case hD23 => intro r d; exact up_copy m c _ _ _ rfl _ _ _ r d
    case hD33 => intro d; exact ub_copy m c _ _ _ rfl _ _ _ d
    show val m h c _ = blockVal m h c t.val _ _
    unfold blockVal
    refine congrArg (val m h c) ?_
    rw [emb_row (A := 4) (by omega : 3 < 4)]
  · -- slot 2: sample 4t+2
    dsimp only
    rw [cut11]
    obtain ⟨s, d, rfl⟩ : ∃ s d, x = ix3 0 s d := ⟨x 1, x 2, lead0 x⟩
    have hwr := (word_read m (k0_off11 (grid0.coords t)) ⟨4 * t.val + 2, by omega⟩ o2 (k0_off11_inb (grid0.coords t)) (numel1_S1.symm ▸ Nat.one_pos))
    refine Eq.trans (slot_value m h c ⟨4 * t.val + 2, by omega⟩ _ hwr (by rw [hwr]; exact tbl_lt m h _) _ _ _ _ _
      ?hX2 ?hD02 ?hD12 ?hD22 ?hD32 s d) ?_
    case hX2 => intro s k; exact x_slot m (ok m) c t 2 (by omega) _ _ rfl s k
    case hD02 => intro k r; exact dp_copy m c _ _ _ rfl _ _ _ k r
    case hD12 => intro r; exact db_copy m c _ _ _ rfl _ _ _ r
    case hD22 => intro r d; exact up_copy m c _ _ _ rfl _ _ _ r d
    case hD32 => intro d; exact ub_copy m c _ _ _ rfl _ _ _ d
    show val m h c _ = blockVal m h c t.val _ _
    unfold blockVal
    refine congrArg (val m h c) ?_
    rw [emb_row (A := 4) (by omega : 2 < 4)]
  · -- slot 1: sample 4t+1
    dsimp only
    rw [Cert.KernelIdeal.PayValue.pay9_eq]
    obtain ⟨s, d, rfl⟩ : ∃ s d, x = ix3 0 s d := ⟨x 1, x 2, lead0 x⟩
    have hwr := (word_read m (k0_off6 (grid0.coords t)) ⟨4 * t.val + 1, by omega⟩ o1 (k0_off6_inb (grid0.coords t)) (numel1_S1.symm ▸ Nat.one_pos))
    refine Eq.trans (slot_value m h c ⟨4 * t.val + 1, by omega⟩ _ hwr (by rw [hwr]; exact tbl_lt m h _) _ _ _ _ _
      ?hX1 ?hD01 ?hD11 ?hD21 ?hD31 s d) ?_
    case hX1 => intro s k; exact x_slot m (ok m) c t 1 (by omega) _ _ rfl s k
    case hD01 => intro k r; exact dp_copy m c _ _ _ rfl _ _ _ k r
    case hD11 => intro r; exact db_copy m c _ _ _ rfl _ _ _ r
    case hD21 => intro r d; exact up_copy m c _ _ _ rfl _ _ _ r d
    case hD31 => intro d; exact ub_copy m c _ _ _ rfl _ _ _ d
    show val m h c _ = blockVal m h c t.val _ _
    unfold blockVal
    refine congrArg (val m h c) ?_
    rw [emb_row (A := 4) (by omega : 1 < 4)]
  · -- slot 0: sample 4t+0
    dsimp only
    rw [cut4]
    obtain ⟨s, d, rfl⟩ : ∃ s d, x = ix3 0 s d := ⟨x 1, x 2, lead0 x⟩
    have hwr := (word_read m (k0_off1 (grid0.coords t)) ⟨4 * t.val + 0, by omega⟩ o0 (k0_off1_inb (grid0.coords t)) (numel1_S1.symm ▸ Nat.one_pos))
    refine Eq.trans (slot_value m h c ⟨4 * t.val + 0, by omega⟩ _ hwr (by rw [hwr]; exact tbl_lt m h _) _ _ _ _ _
      ?hX0 ?hD00 ?hD10 ?hD20 ?hD30 s d) ?_
    case hX0 => intro s k; exact x_slot m (ok m) c t 0 (by omega) _ _ rfl s k
    case hD00 => intro k r; exact dp_copy m c _ _ _ rfl _ _ _ k r
    case hD10 => intro r; exact db_copy m c _ _ _ rfl _ _ _ r
    case hD20 => intro r d; exact up_copy m c _ _ _ rfl _ _ _ r d
    case hD30 => intro d; exact ub_copy m c _ _ _ rfl _ _ _ d
    show val m h c _ = blockVal m h c t.val _ _
    unfold blockVal
    refine congrArg (val m h c) ?_
    rw [emb_row (A := 4) (by omega : 0 < 4)]

/-! ## From the blocks to the array -/

/-- The output window's index map sends point t to block (t, 0, 0) (decided over the 32 points). -/
theorem oidx_facts : ∀ t : Fin grid0.N, cc0_transform_5 (grid0.coords t) 0 = t.val ∧ cc0_transform_5 (grid0.coords t) 1 = 0
    ∧ cc0_transform_5 (grid0.coords t) 2 = 0 := by decide +kernel

set_option backward.isDefEq.respectTransparency.types false in
/-- WHAT POINT t WRITES BACK is block t of the value. -/
theorem flushed_eq (h : Pre m) (c : Dev nD) (t : Fin (cfgM m (ok m)).N) (_ : ((cfgM m (ok m)).win 1).flush t = true) :
    (GenP.dats m (ok m) (hyps_of_pre m h (ok m)) 0 c).flushed 1 t
      = (((cfgM m (ok m)).win 1).blk t).view.read (Elt Ideal) (val m h c) := by
  obtain ⟨e0, e1, e2⟩ := oidx_facts t
  show ((cfgM m (ok m)).win 1).cut (grid0.coords t) ((GenP.dats m (ok m) (hyps_of_pre m h (ok m)) 0 c).after 1 t) = _
  rw [GenP.after0_1, outs_eq m h c t]
  refine funext fun (y : S4x197x768.Idx) => ?_
  rw [View.read_apply]
  show blockVal m h c t.val _ y = val m h c ((((cfgM m (ok m)).win 1).blk t).view.emb y)
  unfold blockVal
  refine congrArg (val m h c) ?_
  funext a
  apply Fin.ext
  match a with
  | ⟨0, _⟩ => show 4 * t.val + (y 0).val = cc0_transform_5 (grid0.coords t) 0 * 4 + 1 * (y 0).val; rw [e0]; omega
  | ⟨1, _⟩ => show (y 1).val = cc0_transform_5 (grid0.coords t) 1 * 197 + 1 * (y 1).val; rw [e1]; omega
  | ⟨2, _⟩ => show (y 2).val = cc0_transform_5 (grid0.coords t) 2 * 768 + 1 * (y 2).val; rw [e2]; omega

set_option backward.isDefEq.respectTransparency.types false in
/-- The 32 blocks tile the result array: sample b is in block b / 4. -/
theorem cover (i : S128x197x768.Idx) :
    ∃ t : Fin (cfgM m (ok m)).N, ((cfgM m (ok m)).win 1).flush t = true ∧ i ∈ (((cfgM m (ok m)).win 1).blk t).view.set := by
  have hi0 : (i 0).val < 128 := (i 0).isLt
  have hi1 : (i 1).val < 197 := (i 1).isLt
  have hi2 : (i 2).val < 768 := (i 2).isLt
  have hN : grid0.N = 32 := N_0
  have ht : (i 0).val / 4 < grid0.N := by omega
  obtain ⟨e0, e1, e2⟩ := oidx_facts ⟨(i 0).val / 4, ht⟩
  refine ⟨⟨(i 0).val / 4, ht⟩, flush0_1 (adm m (ok m)) _, ?_⟩
  show i ∈ ((View.whole main_v12).slice (((cfgM m (ok m)).win 1).rect ⟨(i 0).val / 4, ht⟩)).set
  rw [View.set_slice_whole]
  show i ∈ (Rect.unit (s := S128x197x768) _ _ _).set
  rw [Rect.mem_set_unit]
  intro a
  match a with
  | ⟨0, _⟩ =>
    show cc0_transform_5 (grid0.coords ⟨(i 0).val / 4, ht⟩) 0 * 4 ≤ (i 0).val ∧ (i 0).val < cc0_transform_5 (grid0.coords ⟨(i 0).val / 4, ht⟩) 0 * 4 + 4
    rw [e0]; show (i 0).val / 4 * 4 ≤ (i 0).val ∧ (i 0).val < (i 0).val / 4 * 4 + 4; omega
  | ⟨1, _⟩ =>
    show cc0_transform_5 (grid0.coords ⟨(i 0).val / 4, ht⟩) 1 * 197 ≤ (i 1).val ∧ (i 1).val < cc0_transform_5 (grid0.coords ⟨(i 0).val / 4, ht⟩) 1 * 197 + 197
    rw [e1]; omega
  | ⟨2, _⟩ =>
    show cc0_transform_5 (grid0.coords ⟨(i 0).val / 4, ht⟩) 2 * 768 ≤ (i 2).val ∧ (i 2).val < cc0_transform_5 (grid0.coords ⟨(i 0).val / 4, ht⟩) 2 * 768 + 768
    rw [e2]; omega

/-- So the result array ends holding the value. -/
theorem final (h : Pre m) (c : Dev nD) :
    (GenP.dats m (ok m) (hyps_of_pre m h (ok m)) 0 c).arrAt 1 (cfgM m (ok m)).N = val m h c :=
  (GenP.dats m (ok m) (hyps_of_pre m h (ok m)) 0 c).arrAt_eq_of_cover 1 (val m h c) (flushed_eq m h c) (cover m)

/-- THE KERNEL'S RUN with its result named: the result array at the value, the arguments unchanged. -/
theorem run (h : Pre m) : θ_run defs (onTc (τ := τ) (main (F := Ideal))) ⟨m, fun _ => 0, ρ⟩ (fun r => ∀ c : Dev nD,
      r.2.mem ((c.tc : Thread nD τ).loc main_v12) = val m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hq c => ⟨((hq c).1 1).trans (final m h c),
      ((hq c).1 0).trans (((GenP.dats m (ok m) (hyps_of_pre m h (ok m)) 0 c).arrAt_in 0 rfl _).trans
        ((GenP.A_eq m (ok m) (hyps_of_pre m h (ok m)) c 0).trans (V_main_arg0 m c))),
      ((hq c).2 main_arg1 (by decide : main_arg1 ∈ Pipeline.restRefs sig spec0)).trans (V_main_arg1 m c),
      ((hq c).2 main_arg2 (by decide : main_arg2 ∈ Pipeline.restRefs sig spec0)).trans (V_main_arg2 m c),
      ((hq c).2 main_arg3 (by decide : main_arg3 ∈ Pipeline.restRefs sig spec0)).trans (V_main_arg3 m c),
      ((hq c).2 main_arg4 (by decide : main_arg4 ∈ Pipeline.restRefs sig spec0)).trans (V_main_arg4 m c),
      ((hq c).2 main_arg5 (by decide : main_arg5 ∈ Pipeline.restRefs sig spec0)).trans (V_main_arg5 m c),
      ((hq c).2 main_arg6 (by decide : main_arg6 ∈ Pipeline.restRefs sig spec0)).trans (V_main_arg6 m c)⟩)
    (GenP.run_main m ρ (ok m) (hyps_of_pre m h (ok m)))

end Cert.KernelIdeal.KValue

end
-- ==== Proof.RefValue.lean ====
/-
  The reference's value: its generated run read back, operation by operation, as the adapter function.
-/
import proofs.«428897_j1073741824233_3_alg».proof.Proof.Gen.ReferenceIdeal.Run
import proofs.«428897_j1073741824233_3_alg».proof.Proof.Gen.ReferenceIdeal.Read
import proofs.«428897_j1073741824233_3_alg».proof.Proof.Spec
import Idealize.ShloMosaic.Lib.StableHlo.Predicate

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-! ## Words: a task or depth word is a small non-negative number

A word whose unsigned value is below 2³¹ is not negative as a signed word, so jnp's wrap of a negative index
(`select (w < 0) (w + n) w`) leaves it, and its signed value, as a natural number, is its unsigned one. -/

theorem wrap_small (w n : BitVec 32) (h : w.toNat < 2 ^ 31) :
    Scalar.select (IntOp.cmpi .slt w 0#32) (IntOp.addi w n) w = w := by
  refine if_neg fun hc => ?_
  have h0 : (0#32 : BitVec 32).toNat < 2 ^ 31 := by decide
  have := (StableHlo.Predicate.slt_iff_toNat h h0).mp hc
  exact absurd this (Nat.not_lt_zero _)

theorem toInt_toNat_small (w : BitVec 32) (h : w.toNat < 2 ^ 31) : w.toInt.toNat = w.toNat := by
  rw [StableHlo.Predicate.toInt_eq_toNat_of_lt h]; exact Int.toNat_natCast _

/-- The clamp of a gather's start component into `[0, hi]` leaves a word whose value is at most `hi`. -/
theorem clamp_small (w : BitVec 32) (v hi : Nat) (hv : w.toNat = v) (hle : v ≤ hi) (hhi : hi < 2 ^ 31) :
    min w.toInt.toNat hi = v := by
  rw [toInt_toNat_small w (by omega), hv]; exact Nat.min_eq_left hle

/-! ## A gather whose start axes are collapsed and which has no batching axes, one operand axis at a time

On an operand axis the start index map names and the slice collapses, the operand coordinate is the start
component, read signed and clamped so that the unit slice fits; on an axis the map does not name and the slice
keeps, it is the result's coordinate on the offset axis in that axis's position. -/

section GatherAxes
variable {α : Type} {s si t : Shape} (d : GatherDims s si t)

theorem operandIdx_start_axis {w : Nat} (hb : d.operandBatchingDims = []) (j : t.Idx) (idx : IVec si w) (a : Fin s.rank)
    (hm : a ∈ d.startIndexMap) (hc : a ∈ d.collapsedSliceDims) :
    (d.operandIdx j idx a).val
      = min (idx (d.siIdx j ⟨d.startIndexMap.idxOf a, List.idxOf_lt_length_iff.2 hm⟩)).toInt.toNat (s.size a - d.sliceSizes a) := by
  show d.start j idx a + d.batchCoord j a + d.offCoord j a = _
  rw [d.batchCoord_eq_zero j a (by rw [hb]; exact List.not_mem_nil), Nat.add_zero,
    d.offCoord_eq_zero j a (fun h => ((d.mem_sKept a).mp h).1 hc), Nat.add_zero]
  unfold GatherDims.start
  rw [dif_pos hm]

theorem operandIdx_offset_axis {w : Nat} (hb : d.operandBatchingDims = []) (j : t.Idx) (idx : IVec si w) (a : Fin s.rank)
    (hm : a ∉ d.startIndexMap) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a (by rw [hb]; exact List.not_mem_nil), Nat.add_zero]
  unfold GatherDims.start GatherDims.offCoord
  rw [dif_neg hm, Nat.zero_add, dif_pos hk]

end GatherAxes

/-! ## The four gathers, over any operand and any start-index array

Each has start index map `[0, 1]`, both start axes collapsed, no batching axes, and the index vector on axis 1 of the
`[128, 2]` start indices: result index `(b, …)` reads the operand at `(clamp idx[b,0], clamp idx[b,1], …)`. -/

section Gathers
variable {α : Type}

/-- The down-projection's gather. -/
theorem gather_dp (x : S10x12x768x64.Idx → α) (idx : IVec S128x2 32) (b : Fin 128) (k : Fin 768) (r : Fin 64) :
    Host.gather gather_S10x12x768x64_S128x2_S128x768x64_12_01_n_n_01_1_1176864 x idx (ix3 b k r)
      = x (ix4 (⟨min (idx (ix2 b 0)).toInt.toNat 9, by omega⟩ : Fin 10) (⟨min (idx (ix2 b 1)).toInt.toNat 11, by omega⟩ : Fin 12) k r) := by
  unfold Host.gather
  congr 1
  funext a
  refine Fin.ext ?_
  match a with
  | ⟨0, _⟩ =>
    have hm : (0 : Fin S10x12x768x64.rank) ∈ gather_S10x12x768x64_S128x2_S128x768x64_12_01_n_n_01_1_1176864.startIndexMap := by decide
    refine (operandIdx_start_axis _ rfl (ix3 b k r) idx 0 hm (by decide)).trans ?_
    have hsi : gather_S10x12x768x64_S128x2_S128x768x64_12_01_n_n_01_1_1176864.siIdx (ix3 b k r)
        ⟨List.idxOf (0 : Fin S10x12x768x64.rank) gather_S10x12x768x64_S128x2_S128x768x64_12_01_n_n_01_1_1176864.startIndexMap,
          List.idxOf_lt_length_iff.2 hm⟩ = ix2 b 0 :=
      funext fun c => Fin.ext (by match c with | ⟨0, _⟩ => rfl | ⟨1, _⟩ => rfl)
    rw [hsi]; rfl
  | ⟨1, _⟩ =>
    have hm : (1 : Fin S10x12x768x64.rank) ∈ gather_S10x12x768x64_S128x2_S128x768x64_12_01_n_n_01_1_1176864.startIndexMap := by decide
    refine (operandIdx_start_axis _ rfl (ix3 b k r) idx 1 hm (by decide)).trans ?_
    have hsi : gather_S10x12x768x64_S128x2_S128x768x64_12_01_n_n_01_1_1176864.siIdx (ix3 b k r)
        ⟨List.idxOf (1 : Fin S10x12x768x64.rank) gather_S10x12x768x64_S128x2_S128x768x64_12_01_n_n_01_1_1176864.startIndexMap,
          List.idxOf_lt_length_iff.2 hm⟩ = ix2 b 1 :=
      funext fun c => Fin.ext (by match c with | ⟨0, _⟩ => rfl | ⟨1, _⟩ => rfl)
    rw [hsi]; rfl
  | ⟨2, _⟩ => exact operandIdx_offset_axis _ rfl (ix3 b k r) idx 2 (by decide) (by decide)
  | ⟨3, _⟩ => exact operandIdx_offset_axis _ rfl (ix3 b k r) idx 3 (by decide) (by decide)

/-- The down-projection bias's gather. -/
theorem gather_db (x : S10x12x64.Idx → α) (idx : IVec S128x2 32) (b : Fin 128) (r : Fin 64) :
    Host.gather gather_S10x12x64_S128x2_S128x64_1_01_n_n_01_1_1164 x idx (ix2 b r)
      = x (ix3 (⟨min (idx (ix2 b 0)).toInt.toNat 9, by omega⟩ : Fin 10) (⟨min (idx (ix2 b 1)).toInt.toNat 11, by omega⟩ : Fin 12) r) := by
  unfold Host.gather
  congr 1
  funext a
  refine Fin.ext ?_
  match a with
  | ⟨0, _⟩ =>
    have hm : (0 : Fin S10x12x64.rank) ∈ gather_S10x12x64_S128x2_S128x64_1_01_n_n_01_1_1164.startIndexMap := by decide
    refine (operandIdx_start_axis _ rfl (ix2 b r) idx 0 hm (by decide)).trans ?_
    have hsi : gather_S10x12x64_S128x2_S128x64_1_01_n_n_01_1_1164.siIdx (ix2 b r)
        ⟨List.idxOf (0 : Fin S10x12x64.rank) gather_S10x12x64_S128x2_S128x64_1_01_n_n_01_1_1164.startIndexMap,
          List.idxOf_lt_length_iff.2 hm⟩ = ix2 b 0 :=
      funext fun c => Fin.ext (by match c with | ⟨0, _⟩ => rfl | ⟨1, _⟩ => rfl)
    rw [hsi]; rfl
  | ⟨1, _⟩ =>
    have hm : (1 : Fin S10x12x64.rank) ∈ gather_S10x12x64_S128x2_S128x64_1_01_n_n_01_1_1164.startIndexMap := by decide
    refine (operandIdx_start_axis _ rfl (ix2 b r) idx 1 hm (by decide)).trans ?_
    have hsi : gather_S10x12x64_S128x2_S128x64_1_01_n_n_01_1_1164.siIdx (ix2 b r)
        ⟨List.idxOf (1 : Fin S10x12x64.rank) gather_S10x12x64_S128x2_S128x64_1_01_n_n_01_1_1164.startIndexMap,
          List.idxOf_lt_length_iff.2 hm⟩ = ix2 b 1 :=
      funext fun c => Fin.ext (by match c with | ⟨0, _⟩ => rfl | ⟨1, _⟩ => rfl)
    rw [hsi]; rfl
  | ⟨2, _⟩ => exact operandIdx_offset_axis _ rfl (ix2 b r) idx 2 (by decide) (by decide)

/-- The up-projection's gather. -/
theorem gather_up (x : S10x12x64x768.Idx → α) (idx : IVec S128x2 32) (b : Fin 128) (r : Fin 64) (e : Fin 768) :
    Host.gather gather_S10x12x64x768_S128x2_S128x64x768_12_01_n_n_01_1_1164768 x idx (ix3 b r e)
      = x (ix4 (⟨min (idx (ix2 b 0)).toInt.toNat 9, by omega⟩ : Fin 10) (⟨min (idx (ix2 b 1)).toInt.toNat 11, by omega⟩ : Fin 12) r e) := by
  unfold Host.gather
  congr 1
  funext a
  refine Fin.ext ?_
  match a with
  | ⟨0, _⟩ =>
    have hm : (0 : Fin S10x12x64x768.rank) ∈ gather_S10x12x64x768_S128x2_S128x64x768_12_01_n_n_01_1_1164768.startIndexMap := by decide
    refine (operandIdx_start_axis _ rfl (ix3 b r e) idx 0 hm (by decide)).trans ?_
    have hsi : gather_S10x12x64x768_S128x2_S128x64x768_12_01_n_n_01_1_1164768.siIdx (ix3 b r e)
        ⟨List.idxOf (0 : Fin S10x12x64x768.rank) gather_S10x12x64x768_S128x2_S128x64x768_12_01_n_n_01_1_1164768.startIndexMap,
          List.idxOf_lt_length_iff.2 hm⟩ = ix2 b 0 :=
      funext fun c => Fin.ext (by match c with | ⟨0, _⟩ => rfl | ⟨1, _⟩ => rfl)
    rw [hsi]; rfl
  | ⟨1, _⟩ =>
    have hm : (1 : Fin S10x12x64x768.rank) ∈ gather_S10x12x64x768_S128x2_S128x64x768_12_01_n_n_01_1_1164768.startIndexMap := by decide
    refine (operandIdx_start_axis _ rfl (ix3 b r e) idx 1 hm (by decide)).trans ?_
    have hsi : gather_S10x12x64x768_S128x2_S128x64x768_12_01_n_n_01_1_1164768.siIdx (ix3 b r e)
        ⟨List.idxOf (1 : Fin S10x12x64x768.rank) gather_S10x12x64x768_S128x2_S128x64x768_12_01_n_n_01_1_1164768.startIndexMap,
          List.idxOf_lt_length_iff.2 hm⟩ = ix2 b 1 :=
      funext fun c => Fin.ext (by match c with | ⟨0, _⟩ => rfl | ⟨1, _⟩ => rfl)
    rw [hsi]; rfl
  | ⟨2, _⟩ => exact operandIdx_offset_axis _ rfl (ix3 b r e) idx 2 (by decide) (by decide)
  | ⟨3, _⟩ => exact operandIdx_offset_axis _ rfl (ix3 b r e) idx 3 (by decide) (by decide)

/-- The up-projection bias's gather. -/
theorem gather_ub (x : S10x12x768.Idx → α) (idx : IVec S128x2 32) (b : Fin 128) (e : Fin 768) :
    Host.gather gather_S10x12x768_S128x2_S128x768_1_01_n_n_01_1_11768 x idx (ix2 b e)
      = x (ix3 (⟨min (idx (ix2 b 0)).toInt.toNat 9, by omega⟩ : Fin 10) (⟨min (idx (ix2 b 1)).toInt.toNat 11, by omega⟩ : Fin 12) e) := by
  unfold Host.gather
  congr 1
  funext a
  refine Fin.ext ?_
  match a with
  | ⟨0, _⟩ =>
    have hm : (0 : Fin S10x12x768.rank) ∈ gather_S10x12x768_S128x2_S128x768_1_01_n_n_01_1_11768.startIndexMap := by decide
    refine (operandIdx_start_axis _ rfl (ix2 b e) idx 0 hm (by decide)).trans ?_
    have hsi : gather_S10x12x768_S128x2_S128x768_1_01_n_n_01_1_11768.siIdx (ix2 b e)
        ⟨List.idxOf (0 : Fin S10x12x768.rank) gather_S10x12x768_S128x2_S128x768_1_01_n_n_01_1_11768.startIndexMap,
          List.idxOf_lt_length_iff.2 hm⟩ = ix2 b 0 :=
      funext fun c => Fin.ext (by match c with | ⟨0, _⟩ => rfl | ⟨1, _⟩ => rfl)
    rw [hsi]; rfl
  | ⟨1, _⟩ =>
    have hm : (1 : Fin S10x12x768.rank) ∈ gather_S10x12x768_S128x2_S128x768_1_01_n_n_01_1_11768.startIndexMap := by decide
    refine (operandIdx_start_axis _ rfl (ix2 b e) idx 1 hm (by decide)).trans ?_
    have hsi : gather_S10x12x768_S128x2_S128x768_1_01_n_n_01_1_11768.siIdx (ix2 b e)
        ⟨List.idxOf (1 : Fin S10x12x768.rank) gather_S10x12x768_S128x2_S128x768_1_01_n_n_01_1_11768.startIndexMap,
          List.idxOf_lt_length_iff.2 hm⟩ = ix2 b 1 :=
      funext fun c => Fin.ext (by match c with | ⟨0, _⟩ => rfl | ⟨1, _⟩ => rfl)
    rw [hsi]; rfl
  | ⟨2, _⟩ => exact operandIdx_offset_axis _ rfl (ix2 b e) idx 2 (by decide) (by decide)

end Gathers

/-! ## The start-index array: column 0 the task words, column 1 the depth words -/

section StartIndices

/-- A `[128, 2]` array joined from two `[128, 1]` columns reads the first column at column 0 … -/
theorem cat_col0 (c0 c1 : S128x1.Idx → BitVec 32) (b : Fin 128) :
    concatenate S128x2 1 [⟨S128x1, c0⟩, ⟨S128x1, c1⟩] concatenates_S128x1_S128x1_S128x2_d1 (ix2 b 0) = c0 (ix2 b 0) :=
  concatenate_pair_apply_left 1 c0 c1 concatenates_S128x1_S128x1_S128x2_d1 (ix2 b 0) rfl (ix2 b 0)
    (fun a => by match a with | ⟨0, _⟩ => rfl | ⟨1, _⟩ => rfl)

/-- … and the second column at column 1. -/
theorem cat_col1 (c0 c1 : S128x1.Idx → BitVec 32) (b : Fin 128) :
    concatenate S128x2 1 [⟨S128x1, c0⟩, ⟨S128x1, c1⟩] concatenates_S128x1_S128x1_S128x2_d1 (ix2 b 1) = c1 (ix2 b 0) :=
  concatenate_pair_apply_right 1 c0 c1 concatenates_S128x1_S128x1_S128x2_d1 (ix2 b 1) rfl rfl (ix2 b 0)
    (fun a ha => by match a with | ⟨0, _⟩ => rfl | ⟨1, _⟩ => exact absurd rfl ha) rfl

variable (x5 x6 : (⟨S128, .i32⟩ : BufTy).Contents (Elt Ideal))

/-- The first start-index array at column 0 is the task word, when that word is small. -/
theorem start_task (b : Fin 128) (h : (x5 (ix1 b)).toNat < 2 ^ 31) :
    val_main_v12 (F := Ideal) x5 x6 (ix2 b 0) = x5 (ix1 b) := by
  unfold val_main_v12
  rw [cat_col0, val_main_v10_apply,
    show idx_main_v10 (ix2 b (0 : Fin 1)) = ix1 b from funext fun a => Fin.ext (by match a with | ⟨0, _⟩ => rfl),
    val_main_v4_apply, val_main_v1_apply, val_main_v3_apply, val_main_v0_apply, val_main_c_apply]
  exact wrap_small _ _ h

/-- The first start-index array at column 1 is the depth word, when that word is small. -/
theorem start_depth (b : Fin 128) (h : (x6 (ix1 b)).toNat < 2 ^ 31) :
    val_main_v12 (F := Ideal) x5 x6 (ix2 b 1) = x6 (ix1 b) := by
  unfold val_main_v12
  rw [cat_col1, val_main_v11_apply,
    show idx_main_v11 (ix2 b (0 : Fin 1)) = ix1 b from funext fun a => Fin.ext (by match a with | ⟨0, _⟩ => rfl),
    val_main_v9_apply, val_main_v6_apply, val_main_v8_apply, val_main_v5_apply, val_main_c_1_apply]
  exact wrap_small _ _ h

/-- The reference builds the same start-index array four times, once for each weight array. -/
theorem start_v26 : val_main_v26 (F := Ideal) x5 x6 = val_main_v12 (F := Ideal) x5 x6 := rfl
theorem start_v40 : val_main_v40 (F := Ideal) x5 x6 = val_main_v12 (F := Ideal) x5 x6 := rfl
theorem start_v54 : val_main_v54 (F := Ideal) x5 x6 = val_main_v12 (F := Ideal) x5 x6 := rfl

end StartIndices

/-! ## The reference's stages at an index, under the range hypotheses -/

section Stages
variable (x0 : (⟨S128x197x768, .f32⟩ : BufTy).Contents (Elt Ideal)) (x1 : (⟨S10x12x768x64, .f32⟩ : BufTy).Contents (Elt Ideal))
  (x2 : (⟨S10x12x64, .f32⟩ : BufTy).Contents (Elt Ideal)) (x3 : (⟨S10x12x64x768, .f32⟩ : BufTy).Contents (Elt Ideal))
  (x4 : (⟨S10x12x768, .f32⟩ : BufTy).Contents (Elt Ideal)) (x5 x6 : (⟨S128, .i32⟩ : BufTy).Contents (Elt Ideal))
  (P : Fin 128 → Fin 10) (L : Fin 128 → Fin 12)
  (hP : ∀ b : Fin 128, (x5 (ix1 b)).toNat = (P b).val) (hL : ∀ b : Fin 128, (x6 (ix1 b)).toNat = (L b).val)
include hP hL

/-- Sample `b`'s clamped task component is `P b`. -/
theorem task_eq (b : Fin 128) :
    (⟨min (val_main_v12 (F := Ideal) x5 x6 (ix2 b 0)).toInt.toNat 9, by omega⟩ : Fin 10) = P b := by
  have hlt := (P b).isLt
  refine Fin.ext ?_
  show min (val_main_v12 (F := Ideal) x5 x6 (ix2 b 0)).toInt.toNat 9 = (P b).val
  rw [start_task x5 x6 b (by rw [hP b]; omega)]
  exact clamp_small _ _ 9 (hP b) (by omega) (by decide)

/-- Sample `b`'s clamped depth component is `L b`. -/
theorem depth_eq (b : Fin 128) :
    (⟨min (val_main_v12 (F := Ideal) x5 x6 (ix2 b 1)).toInt.toNat 11, by omega⟩ : Fin 12) = L b := by
  have hlt := (L b).isLt
  refine Fin.ext ?_
  show min (val_main_v12 (F := Ideal) x5 x6 (ix2 b 1)).toInt.toNat 11 = (L b).val
  rw [start_depth x5 x6 b (by rw [hL b]; omega)]
  exact clamp_small _ _ 11 (hL b) (by omega) (by decide)

theorem dp_at (b : Fin 128) (k : Fin 768) (r : Fin 64) :
    val_main_v13 (F := Ideal) x1 x5 x6 (ix3 b k r) = x1 (ix4 (P b) (L b) k r) := by
  unfold val_main_v13
  rw [gather_dp, task_eq x5 x6 P L hP hL b, depth_eq x5 x6 P L hP hL b]

theorem db_at (b : Fin 128) (r : Fin 64) :
    val_main_v27 (F := Ideal) x2 x5 x6 (ix2 b r) = x2 (ix3 (P b) (L b) r) := by
  unfold val_main_v27
  rw [start_v26, gather_db, task_eq x5 x6 P L hP hL b, depth_eq x5 x6 P L hP hL b]

theorem up_at (b : Fin 128) (r : Fin 64) (e : Fin 768) :
    val_main_v41 (F := Ideal) x3 x5 x6 (ix3 b r e) = x3 (ix4 (P b) (L b) r e) := by
  unfold val_main_v41
  rw [start_v40, gather_up, task_eq x5 x6 P L hP hL b, depth_eq x5 x6 P L hP hL b]

theorem ub_at (b : Fin 128) (e : Fin 768) :
    val_main_v55 (F := Ideal) x4 x5 x6 (ix2 b e) = x4 (ix3 (P b) (L b) e) := by
  unfold val_main_v55
  rw [start_v54, gather_ub, task_eq x5 x6 P L hP hL b, depth_eq x5 x6 P L hP hL b]

/-- The relu's output at (b, s, r): the first contraction plus its bias, floored at 0.0. -/
theorem hidden_at (b : Fin 128) (s : Fin 197) (r : Fin 64) :
    val_main_v60 (F := Ideal) x0 x1 x2 x5 x6 (ix3 b s r)
      = max ((∑ k : Fin 768, x0 (ix3 b s k) * x1 (ix4 (P b) (L b) k r)) + x2 (ix3 (P b) (L b) r)) Cert.Adapter.zeroW := by
  rw [val_main_v60_apply, val_main_v59_apply, val_main_v56_apply, val_main_v58_apply, val_main_v57_apply,
    val_main_call0_v0_apply, val_main_call0_cst_apply,
    show idx_main_v57 (idx_main_v58 (ix3 b s r)) = ix2 b r from
      funext fun a => Fin.ext (by match a with | ⟨0, _⟩ => rfl | ⟨1, _⟩ => rfl),
    db_at x2 x5 x6 P L hP hL b r]
  refine congrArg (fun t => max (t + x2 (ix3 (P b) (L b) r)) Cert.Adapter.zeroW) (Finset.sum_congr rfl fun k _ => ?_)
  rw [show lidx_main_v56 (ix3 b s r) k = ix3 b s k from
      funext fun a => Fin.ext (by match a with | ⟨0, _⟩ => rfl | ⟨1, _⟩ => rfl | ⟨2, _⟩ => rfl),
    show ridx_main_v56 (ix3 b s r) k = ix3 b k r from
      funext fun a => Fin.ext (by match a with | ⟨0, _⟩ => rfl | ⟨1, _⟩ => rfl | ⟨2, _⟩ => rfl),
    dp_at x1 x5 x6 P L hP hL b k r]

end Stages

/-- With every task word naming a task (`P`) and every depth word a depth (`L`), the reference's last stage is the adapter
    function of the arguments: the negative-index wrap is not taken, the gathers' clamps leave the words, and the rest is the
    two contractions, the bias sums, the relu and the residual sum, as printed. -/
theorem ref_eq (x0 : (⟨S128x197x768, .f32⟩ : BufTy).Contents (Elt Ideal)) (x1 : (⟨S10x12x768x64, .f32⟩ : BufTy).Contents (Elt Ideal))
    (x2 : (⟨S10x12x64, .f32⟩ : BufTy).Contents (Elt Ideal)) (x3 : (⟨S10x12x64x768, .f32⟩ : BufTy).Contents (Elt Ideal))
    (x4 : (⟨S10x12x768, .f32⟩ : BufTy).Contents (Elt Ideal)) (x5 x6 : (⟨S128, .i32⟩ : BufTy).Contents (Elt Ideal))
    (P : Fin 128 → Fin 10) (L : Fin 128 → Fin 12)
    (hP : ∀ b : Fin 128, (x5 (ix1 b)).toNat = (P b).val) (hL : ∀ b : Fin 128, (x6 (ix1 b)).toNat = (L b).val) :
    val_main_v67 (F := Ideal) x0 x1 x2 x3 x4 x5 x6 = Cert.Adapter.Garr x0 x1 x2 x3 x4 P L := by
  funext i
  obtain ⟨b, s, d, rfl⟩ : ∃ b s d, i = ix3 b s d := ⟨i 0, i 1, i 2, eq_ix3 i⟩
  rw [Cert.Adapter.Garr_ix3]
  unfold Cert.Adapter.G Cert.Adapter.sampleR
  rw [val_main_v67_apply, val_main_v66_apply, val_main_v65_apply, val_main_cst_apply, val_main_v64_apply,
    val_main_v63_apply, val_main_v62_apply, val_main_v61_apply,
    show idx_main_v62 (idx_main_v63 (ix3 b s d)) = ix2 b d from
      funext fun a => Fin.ext (by match a with | ⟨0, _⟩ => rfl | ⟨1, _⟩ => rfl),
    ub_at x4 x5 x6 P L hP hL b d]
  refine congrArg (fun t => (t + x4 (ix3 (P b) (L b) d)) * Cert.Adapter.oneW + x0 (ix3 b s d)) (Finset.sum_congr rfl fun r _ => ?_)
  rw [show lidx_main_v61 (ix3 b s d) r = ix3 b s r from
      funext fun a => Fin.ext (by match a with | ⟨0, _⟩ => rfl | ⟨1, _⟩ => rfl | ⟨2, _⟩ => rfl),
    show ridx_main_v61 (ix3 b s d) r = ix3 b r d from
      funext fun a => Fin.ext (by match a with | ⟨0, _⟩ => rfl | ⟨1, _⟩ => rfl | ⟨2, _⟩ => rfl),
    hidden_at x0 x1 x2 x5 x6 P L hP hL b s r, up_at x3 x5 x6 P L hP hL b r d]

end Cert.ReferenceIdeal.RefValue

end
-- ==== Proof.lean ====
/-
  The proof of `Cert.Claim`: the routed adapter kernel against its jnp reference, over the extended reals.

  Both programs compute, at sample b, row s, column d,
      ( Σ_r max( Σ_k x[b,s,k] · dp[T b, D b, k, r] + db[T b, D b, r], 0 ) · up[T b, D b, r, d] + ub[T b, D b, d] ) · 1 + x[b,s,d] ,
  T b and D b the task and depth words of sample b, which the precondition puts in [0, 10) and [0, 12). The reference
  gathers the weight quadruple at (T b, D b) (its wrap of negative indices is not taken, its gathers' clamps leave the
  words): RefValue. The kernel flattens the pair axis to 120 rows, pads the 64 inner columns to 128 with zeros, and copies
  row 12·T b + D b per sample: the row is the pair's, and the zero columns add nothing to either contraction (a product
  with 0 is 0 on all of the extended reals): KValue over KLoads, HostPrefix, PayValue, PieceValue and Spec. The frames are the
  generated ones, under the side conditions that every row word is below 120, which follow from the precondition
  (HypsB, HypsK); `preserves` asks nothing (the ideal pass rewrote no operation).
-/
import proofs.«428897_j1073741824233_3_alg».proof.Defs
import proofs.«428897_j1073741824233_3_alg».proof.Proof.Gen.Kernel
import proofs.«428897_j1073741824233_3_alg».proof.Proof.Gen.KernelIdeal
import proofs.«428897_j1073741824233_3_alg».proof.Proof.Gen.ReferenceIdeal
import proofs.«428897_j1073741824233_3_alg».proof.Proof.Gen.Pre_finite_inputs
import proofs.«428897_j1073741824233_3_alg».proof.Proof.KernelFrame
import proofs.«428897_j1073741824233_3_alg».proof.Proof.KernelIdealFrame
import proofs.«428897_j1073741824233_3_alg».proof.Proof.HypsB
import proofs.«428897_j1073741824233_3_alg».proof.Proof.HypsK
import proofs.«428897_j1073741824233_3_alg».proof.Proof.KValue
import proofs.«428897_j1073741824233_3_alg».proof.Proof.RefValue
import proofs.«428897_j1073741824233_3_alg».proof.Proof.Gen.ReferenceIdeal.Run
import Idealize.ShloMosaic.Adequacy
import Idealize.ShloMosaic.Init

noncomputable section

namespace Cert.Proof

open Idealize.ShloMosaic Idealize.SL.Sem Idealize.ShloMosaic.ValueIdx

/-- The word-level kernel's tables' side condition is empty, as the idealized kernel's. -/
theorem okB (m : (ℓ : Loc Cert.Kernel.nD Cert.Kernel.τ Cert.Kernel.sig) → Buf (Elt Bits) ℓ) : Cert.Kernel.Gen.Ok m := by
  unfold Cert.Kernel.Gen.Ok Cert.Kernel.ok0; trivial

theorem frame_k : @Cert.frame_Kernel Cert.Kernel.Gen.facts Cert.Pre_finite_inputs.Gen.facts := fun m ρ h =>
  Cert.Kernel.GenP.frame m ρ (okB m) (Cert.Kernel.HypsOfPre.hyps_of_pre m h (okB m))

theorem frame_ki : @Cert.frame_KernelIdeal Cert.KernelIdeal.Gen.facts Cert.Pre_finite_inputs.Gen.facts := fun m ρ h =>
  Cert.KernelIdeal.GenP.frame m ρ (Cert.KernelIdeal.KLoads.ok m) (Cert.KernelIdeal.HypsOfPre.hyps_of_pre m h (Cert.KernelIdeal.KLoads.ok m))

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The kernel's result array ends at the adapter function of its arguments (KValue) and the reference's at its last stage
    (the generated run), which is the same function of arguments that agree (RefValue). -/
theorem algebraic : @Cert.algebraic_KernelIdeal_ReferenceIdeal Cert.KernelIdeal.Gen.facts Cert.ReferenceIdeal.Gen.facts Cert.Pre_finite_inputs.Gen.facts := by
  intro m ρ m' ρ' h hagree
  refine ⟨fun c => Cert.KernelIdeal.KValue.val m h c, Cert.KernelIdeal.KValue.run m ρ h, ?_⟩
  refine (θ_run Cert.ReferenceIdeal.defs _ _).mono (fun _ hq c => ⟨?_, (hq c).2⟩) (Cert.ReferenceIdeal.Value.run (F := Ideal) m' ρ')
  obtain ⟨e0, e1, e2, e3, e4, e5, e6⟩ := hagree c
  rw [(hq c).1, Cert.ReferenceIdeal.Read.val_main_v67_eq, e0, e1, e2, e3, e4, e5, e6]
  exact Cert.ReferenceIdeal.RefValue.ref_eq _ _ _ _ _ _ _ (Cert.KernelIdeal.KLoads.Pw m h c) (Cert.KernelIdeal.KLoads.Lw m h c)
    (fun _ => rfl) (fun _ => rfl)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
